-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x30 : Shape := ⟨2, ![262144, 30]⟩
abbrev S30x32 : Shape := ⟨2, ![30, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S1x8 : Shape := ⟨2, ![1, 8]⟩
abbrev S8x1 : Shape := ⟨2, ![8, 1]⟩
abbrev S1x1 : Shape := ⟨2, ![1, 1]⟩
abbrev S_ : Shape := ⟨0, ![]⟩

class Facts : Prop where
  bcast_S_S262144x30 : S_.BroadcastsInDim S262144x30 (![] : Fin 0 → Fin S262144x30.rank)
  reducesTo_S262144x30_S_d0_1 : S262144x30.ReducesTo [0, 1] S_
  h_S_ : 0 < S_.numel
  bcast_S_S30x32 : S_.BroadcastsInDim S30x32 (![] : Fin 0 → Fin S30x32.rank)
  reducesTo_S30x32_S_d0_1 : S30x32.ReducesTo [0, 1] S_
  bcast_S_S1x32 : S_.BroadcastsInDim S1x32 (![] : Fin 0 → Fin S1x32.rank)
  reducesTo_S1x32_S_d0_1 : S1x32.ReducesTo [0, 1] S_
  bcast_S_S32x16 : S_.BroadcastsInDim S32x16 (![] : Fin 0 → Fin S32x16.rank)
  reducesTo_S32x16_S_d0_1 : S32x16.ReducesTo [0, 1] S_
  bcast_S_S1x16 : S_.BroadcastsInDim S1x16 (![] : Fin 0 → Fin S1x16.rank)
  reducesTo_S1x16_S_d0_1 : S1x16.ReducesTo [0, 1] S_
  bcast_S_S16x8 : S_.BroadcastsInDim S16x8 (![] : Fin 0 → Fin S16x8.rank)
  reducesTo_S16x8_S_d0_1 : S16x8.ReducesTo [0, 1] S_
  bcast_S_S1x8 : S_.BroadcastsInDim S1x8 (![] : Fin 0 → Fin S1x8.rank)
  reducesTo_S1x8_S_d0_1 : S1x8.ReducesTo [0, 1] S_
  bcast_S_S8x1 : S_.BroadcastsInDim S8x1 (![] : Fin 0 → Fin S8x1.rank)
  reducesTo_S8x1_S_d0_1 : S8x1.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S8x1 .f32) (main_arg8 : FVec F S1x1 .f32) (main_v33 : IVec S_ 1) : IVec S_ 1 :=
  let main_v34 : FVec F S8x1 .f32 := Host.absf main_arg7
  let main_cst_12 : FVec F S_ .f32 := constant S_ .f32 0x7F800000#32
  let main_v35 : FVec F S8x1 .f32 := broadcastInDim S8x1 ![] bcast_S_S8x1 main_cst_12
  let main_v36 : IVec S8x1 1 := cmpf .olt main_v34 main_v35
  let main_c_13 : IVec S_ 1 := constantI S_ 1 1#1
  let main_v37 : IVec S_ 1 := (fun x v => Host.reduce IntOp.andi x v reducesTo_S8x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  main_v43

def fn_part1 {F : FTy → Type} [FloatOps F] (main_arg4 : FVec F S1x16 .f32) (main_arg5 : FVec F S16x8 .f32) (main_arg6 : FVec F S1x8 .f32) (main_arg7 : FVec F S8x1 .f32) (main_arg8 : FVec F S1x1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S1x8 .f32 := Host.absf main_arg6
  let main_cst_10 : FVec F S_ .f32 := constant S_ .f32 0x7F800000#32
  let main_v30 : FVec F S1x8 .f32 := broadcastInDim S1x8 ![] bcast_S_S1x8 main_cst_10
  let main_v31 : IVec S1x8 1 := cmpf .olt main_v29 main_v30
  let main_c_11 : IVec S_ 1 := constantI S_ 1 1#1
  let main_v32 : IVec S_ 1 := (fun x v => Host.reduce IntOp.andi x v reducesTo_S1x8_S_d0_1 h_S_) main_v31 main_c_11
  let main_v33 : IVec S_ 1 := andi main_v28 main_v32
  fn_part2 (F := F) main_arg7 main_arg8 main_v33

def fn {F : FTy → Type} [FloatOps F] (main_arg0 : FVec F S262144x30 .f32) (main_arg1 : FVec F S30x32 .f32) (main_arg2 : FVec F S1x32 .f32) (main_arg3 : FVec F S32x16 .f32) (main_arg4 : FVec F S1x16 .f32) (main_arg5 : FVec F S16x8 .f32) (main_arg6 : FVec F S1x8 .f32) (main_arg7 : FVec F S8x1 .f32) (main_arg8 : FVec F S1x1 .f32) : IVec S_ 1 :=
  let main_v0 : FVec F S262144x30 .f32 := Host.absf main_arg0
  let main_cst : FVec F S_ .f32 := constant S_ .f32 0x7F800000#32
  let main_v1 : FVec F S262144x30 .f32 := broadcastInDim S262144x30 ![] bcast_S_S262144x30 main_cst
  let main_v2 : IVec S262144x30 1 := cmpf .olt main_v0 main_v1
  let main_c : IVec S_ 1 := constantI S_ 1 1#1
  let main_v3 : IVec S_ 1 := (fun x v => Host.reduce IntOp.andi x v reducesTo_S262144x30_S_d0_1 h_S_) main_v2 main_c
  let main_v4 : FVec F S30x32 .f32 := Host.absf main_arg1
  let main_cst_0 : FVec F S_ .f32 := constant S_ .f32 0x7F800000#32
  let main_v5 : FVec F S30x32 .f32 := broadcastInDim S30x32 ![] bcast_S_S30x32 main_cst_0
  let main_v6 : IVec S30x32 1 := cmpf .olt main_v4 main_v5
  let main_c_1 : IVec S_ 1 := constantI S_ 1 1#1
  let main_v7 : IVec S_ 1 := (fun x v => Host.reduce IntOp.andi x v reducesTo_S30x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_v13 main_v16
-- ==== Kernel.lean ====
abbrev S262144x30 : Shape := ⟨2, ![262144, 30]⟩
abbrev S30x32 : Shape := ⟨2, ![30, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S1x8 : Shape := ⟨2, ![1, 8]⟩
abbrev S8x1 : Shape := ⟨2, ![8, 1]⟩
abbrev S1x1 : Shape := ⟨2, ![1, 1]⟩
abbrev S32768x240 : Shape := ⟨2, ![32768, 240]⟩
abbrev S8x8 : Shape := ⟨2, ![8, 8]⟩
abbrev S_ : Shape := ⟨0, ![]⟩
abbrev S8x1x8x1 : Shape := ⟨4, ![8, 1, 8, 1]⟩
abbrev S1x30x1x32 : Shape := ⟨4, ![1, 30, 1, 32]⟩
abbrev S8x30x8x32 : Shape := ⟨4, ![8, 30, 8, 32]⟩
abbrev S240x256 : Shape := ⟨2, ![240, 256]⟩
abbrev S1x1x1x32 : Shape := ⟨4, ![1, 1, 1, 32]⟩
abbrev S1x1x8x32 : Shape := ⟨4, ![1, 1, 8, 32]⟩
abbrev S1x256 : Shape := ⟨2, ![1, 256]⟩
abbrev S1x32x1x16 : Shape := ⟨4, ![1, 32, 1, 16]⟩
abbrev S8x32x8x16 : Shape := ⟨4, ![8, 32, 8, 16]⟩
abbrev S256x128 : Shape := ⟨2, ![256, 128]⟩
abbrev S1x1x1x16 : Shape := ⟨4, ![1, 1, 1, 16]⟩
abbrev S1x1x8x16 : Shape := ⟨4, ![1, 1, 8, 16]⟩
abbrev S1x128 : Shape := ⟨2, ![1, 128]⟩
abbrev S1x16x1x8 : Shape := ⟨4, ![1, 16, 1, 8]⟩
abbrev S8x16x8x8 : Shape := ⟨4, ![8, 16, 8, 8]⟩
abbrev S128x64 : Shape := ⟨2, ![128, 64]⟩
abbrev S1x1x1x8 : Shape := ⟨4, ![1, 1, 1, 8]⟩
abbrev S1x1x8x8 : Shape := ⟨4, ![1, 1, 8, 8]⟩
abbrev S1x64 : Shape := ⟨2, ![1, 64]⟩
abbrev S1x8x1x1 : Shape := ⟨4, ![1, 8, 1, 1]⟩
abbrev S8x8x8x1 : Shape := ⟨4, ![8, 8, 8, 1]⟩
abbrev S64x8 : Shape := ⟨2, ![64, 8]⟩
abbrev S1x1x1x1 : Shape := ⟨4, ![1, 1, 1, 1]⟩
abbrev S1x1x8x1 : Shape := ⟨4, ![1, 1, 8, 1]⟩
abbrev S32768x8 : Shape := ⟨2, ![32768, 8]⟩
abbrev S4096x240 : Shape := ⟨2, ![4096, 240]⟩
abbrev S4096x8 : Shape := ⟨2, ![4096, 8]⟩
abbrev S4096x256 : Shape := ⟨2, ![4096, 256]⟩
abbrev S4096x128 : Shape := ⟨2, ![4096, 128]⟩
abbrev S4096x64 : Shape := ⟨2, ![4096, 64]⟩
abbrev S262144x1 : Shape := ⟨2, ![262144, 1]⟩

abbrev nBuf : Space → Nat
  | .hbm => 59
  | .vmem => 12
  | .smem => 0
  | _ => 0

abbrev bufTy : (tb : Table) → Fin (tcTables nBuf tb) → BufTy
  | .hbm, ⟨0, _⟩ => ⟨S262144x30, .f32⟩
  | .hbm, ⟨1, _⟩ => ⟨S30x32, .f32⟩
  | .hbm, ⟨2, _⟩ => ⟨S1x32, .f32⟩
  | .hbm, ⟨3, _⟩ => ⟨S32x16, .f32⟩
  | .hbm, ⟨4, _⟩ => ⟨S1x16, .f32⟩
  | .hbm, ⟨5, _⟩ => ⟨S16x8, .f32⟩
  | .hbm, ⟨6, _⟩ => ⟨S1x8, .f32⟩
  | .hbm, ⟨7, _⟩ => ⟨S8x1, .f32⟩
  | .hbm, ⟨8, _⟩ => ⟨S1x1, .f32⟩
  | .hbm, ⟨9, _⟩ => ⟨S32768x240, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S8x1x8x1, .f32⟩
  | .hbm, ⟨18, _⟩ => ⟨S1x30x1x32, .f32⟩
  | .hbm, ⟨19, _⟩ => ⟨S8x30x8x32, .f32⟩
  | .hbm, ⟨20, _⟩ => ⟨S8x30x8x32, .f32⟩
  | .hbm, ⟨21, _⟩ => ⟨S8x30x8x32, .f32⟩
  | .hbm, ⟨22, _⟩ => ⟨S240x256, .f32⟩
  | .hbm, ⟨23, _⟩ => ⟨S240x256, .bf16⟩
  | .hbm, ⟨24, _⟩ => ⟨S1x1x1x32, .f32⟩
  | .hbm, ⟨25, _⟩ => ⟨S1x1x8x32, .f32⟩
  | .hbm, ⟨26, _⟩ => ⟨S1x256, .f32⟩
  | .hbm, ⟨27, _⟩ => ⟨S8x1x8x1, .f32⟩
  | .hbm, ⟨28, _⟩ => ⟨S1x32x1x16, .f32⟩
  | .hbm, ⟨29, _⟩ => ⟨S8x32x8x16, .f32⟩
  | .hbm, ⟨30, _⟩ => ⟨S8x32x8x16, .f32⟩
  | .hbm, ⟨31, _⟩ => ⟨S8x32x8x16, .f32⟩
  | .hbm, ⟨32, _⟩ => ⟨S256x128, .f32⟩
  | .hbm, ⟨33, _⟩ => ⟨S256x128, .bf16⟩
  | .hbm, ⟨34, _⟩ => ⟨S1x1x1x16, .f32⟩
  | .hbm, ⟨35, _⟩ => ⟨S1x1x8x16, .f32⟩
  | .hbm, ⟨36, _⟩ => ⟨S1x128, .f32⟩
  | .hbm, ⟨37, _⟩ => ⟨S8x1x8x1, .f32⟩
  | .hbm, ⟨38, _⟩ => ⟨S1x16x1x8, .f32⟩
  | .hbm, ⟨39, _⟩ => ⟨S8x16x8x8, .f32⟩
  | .hbm, ⟨40, _⟩ => ⟨S8x16x8x8, .f32⟩
  | .hbm, ⟨41, _⟩ => ⟨S8x16x8x8, .f32⟩
  | .hbm, ⟨42, _⟩ => ⟨S128x64, .f32⟩
  | .hbm, ⟨43, _⟩ => ⟨S128x64, .bf16⟩
  | .hbm, ⟨44, _⟩ => ⟨S1x1x1x8, .f32⟩
  | .hbm, ⟨45, _⟩ => ⟨S1x1x8x8, .f32⟩
  | .hbm, ⟨46, _⟩ => ⟨S1x64, .f32⟩
  | .hbm, ⟨47, _⟩ => ⟨S8x1x8x1, .f32⟩
  | .hbm, ⟨48, _⟩ => ⟨S1x8x1x1, .f32⟩
  | .hbm, ⟨49, _⟩ => ⟨S8x8x8x1, .f32⟩
  | .hbm, ⟨50, _⟩ => ⟨S8x8x8x1, .f32⟩
  | .hbm, ⟨51, _⟩ => ⟨S8x8x8x1, .f32⟩
  | .hbm, ⟨52, _⟩ => ⟨S64x8, .f32⟩
  | .hbm, ⟨53, _⟩ => ⟨S64x8, .bf16⟩
  | .hbm, ⟨54, _⟩ => ⟨S1x1x1x1, .f32⟩
  | .hbm, ⟨55, _⟩ => ⟨S1x1x8x1, .f32⟩
  | .hbm, ⟨56, _⟩ => ⟨S1x8, .f32⟩
  | .hbm, ⟨57, _⟩ => ⟨S32768x8, .f32⟩
  | .hbm, ⟨58, _⟩ => ⟨S262144x1, .f32⟩
  | .local _ .vmem, ⟨0, _⟩ => ⟨S4096x240, .f32⟩
  | .local _ .vmem, ⟨1, _⟩ => ⟨S4096x240, .f32⟩
  | .local _ .vmem, ⟨2, _⟩ => ⟨S240x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S64x8, .bf16⟩
  | .local _ .vmem, ⟨9, _⟩ => ⟨S1x8, .f32⟩
  | .local _ .vmem, ⟨10, _⟩ => ⟨S4096x8, .f32⟩
  | .local _ .vmem, ⟨11, _⟩ => ⟨S4096x8, .f32⟩
  | _, _ => ⟨S262144x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S240x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x8 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S262144x30_S32768x240 : S262144x30.ShapeCasts S32768x240
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S30x32_S1x30x1x32_1_3 : S30x32.BroadcastsInDim S1x30x1x32 (![1, 3] : Fin 2 → Fin S1x30x1x32.rank)
  bcast_S8x1x8x1_S8x30x8x32_0_1_2_3 : S8x1x8x1.BroadcastsInDim S8x30x8x32 (![0, 1, 2, 3] : Fin 4 → Fin S8x30x8x32.rank)
  bcast_S1x30x1x32_S8x30x8x32_0_1_2_3 : S1x30x1x32.BroadcastsInDim S8x30x8x32 (![0, 1, 2, 3] : Fin 4 → Fin S8x30x8x32.rank)
  shapeCasts_S8x30x8x32_S240x256 : S8x30x8x32.ShapeCasts S240x256
  bitsLt_bf16_f32 : FTy.bits .bf16 < FTy.bits .f32
  shapeCasts_S1x32_S1x1x1x32 : S1x32.ShapeCasts S1x1x1x32
  bcast_S1x1x1x32_S1x1x8x32_0_1_2_3 : S1x1x1x32.BroadcastsInDim S1x1x8x32 (![0, 1, 2, 3] : Fin 4 → Fin S1x1x8x32.rank)
  shapeCasts_S1x1x8x32_S1x256 : S1x1x8x32.ShapeCasts S1x256
  bcast_S32x16_S1x32x1x16_1_3 : S32x16.BroadcastsInDim S1x32x1x16 (![1, 3] : Fin 2 → Fin S1x32x1x16.rank)
  bcast_S8x1x8x1_S8x32x8x16_0_1_2_3 : S8x1x8x1.BroadcastsInDim S8x32x8x16 (![0, 1, 2, 3] : Fin 4 → Fin S8x32x8x16.rank)
  bcast_S1x32x1x16_S8x32x8x16_0_1_2_3 : S1x32x1x16.BroadcastsInDim S8x32x8x16 (![0, 1, 2, 3] : Fin 4 → Fin S8x32x8x16.rank)
  shapeCasts_S8x32x8x16_S256x128 : S8x32x8x16.ShapeCasts S256x128
  shapeCasts_S1x16_S1x1x1x16 : S1x16.ShapeCasts S1x1x1x16
  bcast_S1x1x1x16_S1x1x8x16_0_1_2_3 : S1x1x1x16.BroadcastsInDim S1x1x8x16 (![0, 1, 2, 3] : Fin 4 → Fin S1x1x8x16.rank)
  shapeCasts_S1x1x8x16_S1x128 : S1x1x8x16.ShapeCasts S1x128
  bcast_S16x8_S1x16x1x8_1_3 : S16x8.BroadcastsInDim S1x16x1x8 (![1, 3] : Fin 2 → Fin S1x16x1x8.rank)
  bcast_S8x1x8x1_S8x16x8x8_0_1_2_3 : S8x1x8x1.BroadcastsInDim S8x16x8x8 (![0, 1, 2, 3] : Fin 4 → Fin S8x16x8x8.rank)
  bcast_S1x16x1x8_S8x16x8x8_0_1_2_3 : S1x16x1x8.BroadcastsInDim S8x16x8x8 (![0, 1, 2, 3] : Fin 4 → Fin S8x16x8x8.rank)
  shapeCasts_S8x16x8x8_S128x64 : S8x16x8x8.ShapeCasts S128x64
  shapeCasts_S1x8_S1x1x1x8 : S1x8.ShapeCasts S1x1x1x8
  bcast_S1x1x1x8_S1x1x8x8_0_1_2_3 : S1x1x1x8.BroadcastsInDim S1x1x8x8 (![0, 1, 2, 3] : Fin 4 → Fin S1x1x8x8.rank)
  shapeCasts_S1x1x8x8_S1x64 : S1x1x8x8.ShapeCasts S1x64
  bcast_S8x1_S1x8x1x1_1_3 : S8x1.BroadcastsInDim S1x8x1x1 (![1, 3] : Fin 2 → Fin S1x8x1x1.rank)
  bcast_S8x1x8x1_S8x8x8x1_0_1_2_3 : S8x1x8x1.BroadcastsInDim S8x8x8x1 (![0, 1, 2, 3] : Fin 4 → Fin S8x8x8x1.rank)
  bcast_S1x8x1x1_S8x8x8x1_0_1_2_3 : S1x8x1x1.BroadcastsInDim S8x8x8x1 (![0, 1, 2, 3] : Fin 4 → Fin S8x8x8x1.rank)
  shapeCasts_S8x8x8x1_S64x8 : S8x8x8x1.ShapeCasts S64x8
  shapeCasts_S1x1_S1x1x1x1 : S1x1.ShapeCasts S1x1x1x1
  bcast_S1x1x1x1_S1x1x8x1_0_1_2_3 : S1x1x1x1.BroadcastsInDim S1x1x8x1 (![0, 1, 2, 3] : Fin 4 → Fin S1x1x8x1.rank)
  shapeCasts_S1x1x8x1_S1x8 : S1x1x8x1.ShapeCasts S1x8
  inb_S4096x240_S4096x240_0_0 : ∀ a, (![0, 0] : Fin 2 → Nat) a + S4096x240.size a ≤ S4096x240.size a
  h_S4096x240 : 0 < S4096x240.numel
  shapeCasts_S4096x240_S4096x240 : S4096x240.ShapeCasts S4096x240
  inb_S240x256_S240x256_0_0 : ∀ a, (![0, 0] : Fin 2 → Nat) a + S240x256.size a ≤ S240x256.size a
  h_S240x256 : 0 < S240x256.numel
  shapeCasts_S240x256_S240x256 : S240x256.ShapeCasts S240x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  broadcasts_S1x64_S4096x64 : S1x64.Broadcasts S4096x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x8_S1x8_0_0 : ∀ a, (![0, 0] : Fin 2 → Nat) a + S1x8.size a ≤ S1x8.size a
  h_S1x8 : 0 < S1x8.numel
  broadcasts_S1x8_S4096x8 : S1x8.Broadcasts S4096x8
  inb_S4096x8_S4096x8_0_0 : ∀ a, (![0, 0] : Fin 2 → Nat) a + S4096x8.size a ≤ S4096x8.size a
  h_S4096x8 : 0 < S4096x8.numel
  shapeCasts_S32768x8_S262144x1 : S32768x8.ShapeCasts S262144x1
  dot_S4096x240_S240x256_S4096x256_1_0_0_1_n_n_wf : DotDims.WF S4096x240 S240x256 S4096x256 [1] [0] [0] [1] [] []
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  dot_S4096x64_S64x8_S4096x8_1_0_0_1_n_n_wf : DotDims.WF S4096x64 S64x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x240.size a ≤ S32768x240.size a
  hwx0_0 : ∀ i : grid0.Coords, EltTy.bits .f32 = 32 ∨ (Rect.block (s := S32768x240) S4096x240.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S240x256.size a ≤ S240x256.size a
  hwx0_1 : ∀ i : grid0.Coords, EltTy.bits .bf16 = 32 ∨ (Rect.block (s := S240x256) S240x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x8.size a ≤ S64x8.size a
  hwx0_7 : ∀ i : grid0.Coords, EltTy.bits .bf16 = 32 ∨ (Rect.block (s := S64x8) S64x8.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x8.size a ≤ S32768x8.size a
  hwx0_9 : ∀ i : grid0.Coords, EltTy.bits .f32 = 32 ∨ (Rect.block (s := S32768x8) S4096x8.size (cc0_transform_9 i) (hinb0_9 i)).WholeWords (EltTy.packing .f32)

variable [Facts₀]

def dot_S4096x240_S240x256_S4096x256_1_0_0_1_n_n : DotDims S4096x240 S240x256 S4096x256 where
  lhsContracting := [1]
  rhsContracting := [0]
  lhsNonContracting := [0]
  rhsNonContracting := [1]
  lhsBatch := []
  rhsBatch := []
  wf := dot_S4096x240_S240x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf

abbrev win0_0 : Pipeline.Window sig grid0 :=
  Pipeline.Window.ofSpec (Memref.whole main_v0) S4096x240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S240x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S64x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S4096x8.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x30 : Shape := ⟨2, ![262144, 30]⟩
abbrev S30x32 : Shape := ⟨2, ![30, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S1x8 : Shape := ⟨2, ![1, 8]⟩
abbrev S8x1 : Shape := ⟨2, ![8, 1]⟩
abbrev S1x1 : Shape := ⟨2, ![1, 1]⟩
abbrev S262144x1 : Shape := ⟨2, ![262144, 1]⟩
abbrev S2048x30 : Shape := ⟨2, ![2048, 30]⟩
abbrev S2048x1 : Shape := ⟨2, ![2048, 1]⟩
abbrev S2048x32 : Shape := ⟨2, ![2048, 32]⟩
abbrev S2048x16 : Shape := ⟨2, ![2048, 16]⟩
abbrev S2048x8 : Shape := ⟨2, ![2048, 8]⟩

abbrev nBuf : Space → Nat
  | .hbm => 10
  | .vmem => 12
  | .smem => 0
  | _ => 0

abbrev bufTy : (tb : Table) → Fin (tcTables nBuf tb) → BufTy
  | .hbm, ⟨0, _⟩ => ⟨S262144x30, .f32⟩
  | .hbm, ⟨1, _⟩ => ⟨S30x32, .f32⟩
  | .hbm, ⟨2, _⟩ => ⟨S1x32, .f32⟩
  | .hbm, ⟨3, _⟩ => ⟨S32x16, .f32⟩
  | .hbm, ⟨4, _⟩ => ⟨S1x16, .f32⟩
  | .hbm, ⟨5, _⟩ => ⟨S16x8, .f32⟩
  | .hbm, ⟨6, _⟩ => ⟨S1x8, .f32⟩
  | .hbm, ⟨7, _⟩ => ⟨S8x1, .f32⟩
  | .hbm, ⟨8, _⟩ => ⟨S1x1, .f32⟩
  | .hbm, ⟨9, _⟩ => ⟨S262144x1, .f32⟩
  | .local _ .vmem, ⟨0, _⟩ => ⟨S2048x30, .f32⟩
  | .local _ .vmem, ⟨1, _⟩ => ⟨S2048x30, .f32⟩
  | .local _ .vmem, ⟨2, _⟩ => ⟨S30x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S16x8, .f32⟩
  | .local _ .vmem, ⟨7, _⟩ => ⟨S1x8, .f32⟩
  | .local _ .vmem, ⟨8, _⟩ => ⟨S8x1, .f32⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | _, _ => ⟨S262144x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S2048x30_S2048x30_0_0 : ∀ a, (![0, 0] : Fin 2 → Nat) a + S2048x30.size a ≤ S2048x30.size a
  h_S2048x30 : 0 < S2048x30.numel
  inb_S30x32_S30x32_0_0 : ∀ a, (![0, 0] : Fin 2 → Nat) a + S30x32.size a ≤ S30x32.size a
  h_S30x32 : 0 < S30x32.numel
  inb_S1x32_S1x32_0_0 : ∀ a, (![0, 0] : Fin 2 → Nat) a + S1x32.size a ≤ S1x32.size a
  h_S1x32 : 0 < S1x32.numel
  broadcasts_S1x32_S2048x32 : S1x32.Broadcasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  broadcasts_S1x16_S2048x16 : S1x16.Broadcasts S2048x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  broadcasts_S1x8_S2048x8 : S1x8.Broadcasts S2048x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x30_S30x32_S2048x32_1_0_0_1_n_n_wf : DotDims.WF S2048x30 S30x32 S2048x32 [1] [0] [0] [1] [] []
  dot_S2048x32_S32x16_S2048x16_1_0_0_1_n_n_wf : DotDims.WF S2048x32 S32x16 S2048x16 [1] [0] [0] [1] [] []
  dot_S2048x16_S16x8_S2048x8_1_0_0_1_n_n_wf : DotDims.WF S2048x16 S16x8 S2048x8 [1] [0] [0] [1] [] []
  dot_S2048x8_S8x1_S2048x1_1_0_0_1_n_n_wf : DotDims.WF S2048x8 S8x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x30.size a ≤ S262144x30.size a
  hwx0_0 : ∀ i : grid0.Coords, EltTy.bits .f32 = 32 ∨ (Rect.block (s := S262144x30) S2048x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x32.size a ≤ S30x32.size a
  hwx0_1 : ∀ i : grid0.Coords, EltTy.bits .f32 = 32 ∨ (Rect.block (s := S30x32) S30x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x8.size a ≤ S16x8.size a
  hwx0_5 : ∀ i : grid0.Coords, EltTy.bits .f32 = 32 ∨ (Rect.block (s := S16x8) S16x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S262144x1.size a
  hwx0_9 : ∀ i : grid0.Coords, EltTy.bits .f32 = 32 ∨ (Rect.block (s := S262144x1) S2048x1.size (cc0_transform_9 i) (hinb0_9 i)).WholeWords (EltTy.packing .f32)

variable [Facts₀]

def dot_S2048x30_S30x32_S2048x32_1_0_0_1_n_n : DotDims S2048x30 S30x32 S2048x32 where
  lhsContracting := [1]
  rhsContracting := [0]
  lhsNonContracting := [0]
  rhsNonContracting := [1]
  lhsBatch := []
  rhsBatch := []
  wf := dot_S2048x30_S30x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x8_S2048x8_1_0_0_1_n_n : DotDims S2048x16 S16x8 S2048x8 where
  lhsContracting := [1]
  rhsContracting := [0]
  lhsNonContracting := [0]
  rhsNonContracting := [1]
  lhsBatch := []
  rhsBatch := []
  wf := dot_S2048x16_S16x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf

abbrev win0_0 : Pipeline.Window sig grid0 :=
  Pipeline.Window.ofSpec (Memref.whole main_arg0) S2048x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S30x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.LibPlainDot.lean ====
/-
  A plain matrix product read at an entry, on the extended reals.

  For the dimension numbers of an `M×K` by `K×N` product (contract the left operand's axis 1 with the right
  operand's axis 0, no batch axes), the product into a zero accumulator, read at row `p` and column `q`, is the
  sum over `k : Fin K` of `lhs (p, k) * rhs (k, q)`. Beside it, a one-row array broadcast down the rows, read at
  an entry. General: the file mentions no program.
-/
import Idealize.ShloMosaic.PureOps.Ideal.Laws
import Idealize.ShloMosaic.Lib.ValueIdx
import Idealize.ShloMosaic.Lib.Pipeline.Value

noncomputable section

open scoped BigOperators

namespace Idealize.ShloMosaic.PlainDot

open Idealize.ShloMosaic Idealize.ShloMosaic.ValueIdx

variable {M K N : Nat}

/-- The contraction index of the plain product is its one coordinate, a `Fin K`. -/
def kEquiv (M K N : Nat) : (DotDims.plain M K N).contr.Idx ≃ Fin K :=
  contrEquiv1 (DotDims.plain M K N) K rfl rfl

theorem kEquiv_symm_val (M N : Nat) (k : Fin K) :
    (((kEquiv M K N).symm k) ⟨0, (Nat.one_pos : 0 < (DotDims.plain M K N).contr.rank)⟩ : ℕ) = k.val :=
  contrEquiv1_symm_val (DotDims.plain M K N) K rfl rfl k

/-- The left operand is read at (row of the output index, contraction position). -/
theorem lhsIdx_eq (p : Fin M) (q : Fin N) (k : Fin K) :
    (DotDims.plain M K N).lhsIdx (ix2 p q) ((kEquiv M K N).symm k) = ix2 p k :=
  Shape.idx_ext₂ rfl (kEquiv_symm_val M N k)

/-- The right operand is read at (contraction position, column of the output index). -/
theorem rhsIdx_eq (p : Fin M) (q : Fin N) (k : Fin K) :
    (DotDims.plain M K N).rhsIdx (ix2 p q) ((kEquiv M K N).symm k) = ix2 k q :=
  Shape.idx_ext₂ (kEquiv_symm_val M N k) rfl

/-- The product into a zero accumulator at entry `(p, q)` is `∑ k, lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (kEquiv M K N).symm]
  exact Finset.sum_congr rfl fun k _ => by rw [lhsIdx_eq, rhsIdx_eq]

/-- A one-row array broadcast down `R` rows, read at row `y`, column `n`, is the row's entry `n`. -/
theorem broadcastTo_row_apply {α : Type} {R B : Nat} (x : (⟨2, ![1, B]⟩ : Shape).Idx → α)
    (h : (⟨2, ![1, B]⟩ : Shape).Broadcasts ⟨2, ![R, B]⟩) (y : Fin R) (n : Fin B) :
    broadcastTo ⟨2, ![R, B]⟩ x h (ix2 y n) = x (ix2 0 n) := by
  refine broadcastTo_apply x h (ix2 y n) (ix2 0 n) fun a => ?_
  match a with
  | ⟨0, _⟩ => exact (if_pos rfl).symm
  | ⟨1, _⟩ =>
    by_cases hB : B = 1
    · subst hB
      have : n.val = 0 := by have := n.isLt; omega
      exact this.trans (if_pos rfl).symm
    · exact (if_neg hB).symm

end Idealize.ShloMosaic.PlainDot

end
-- ==== Proof.Mlp.lean ====
/-
  The mathematics of the certificate, with no program in sight.

  A four-layer perceptron acts on each row `x` of the batch independently: three times
  `h ↦ max (h · W + b) 0`, then `h ↦ logistic (h · W + b)`.  One side evaluates it row by row.  The other
  side first lays `G` consecutive rows side by side in one long row, and multiplies by the block-diagonal
  matrix with `G` copies of `W` on its diagonal (entry `(g'·A + j, g·B + n)` is `δ g' g · W j n`) and the
  bias repeated `G` times.  Entry `g·B + n` of the long product is entry `n` of row `g`'s product:
  the terms with `g' ≠ g` carry the factor `0` and vanish, `1 · w = w`, and what is left is the short sum.
  On the extended reals `0 · a = 0` and `1 · a = a` for EVERY `a`, and finite sums may be regrouped, so
  no finiteness of the data is needed.
-/
import Idealize.ShloMosaic.PureOps.Ideal
import Mathlib.Algebra.BigOperators.Fin
import Mathlib.Logic.Equiv.Fin.Basic

noncomputable section

open scoped BigOperators

namespace Cert.Mlp

open Idealize.ShloMosaic

/-- One dense layer on one row: `(h · W + b) n`. -/
def lin {A B : Nat} (h : Fin A → EReal) (w : Fin A → Fin B → EReal) (b : Fin B → EReal) : Fin B → EReal :=
  fun n => (∑ k, h k * w k n) + b n

/-- The rectifier, entry by entry. -/
def relu {B : Nat} (h : Fin B → EReal) : Fin B → EReal := fun n => max (h n) 0

/-- The whole network on one row. -/
def net {A0 A1 A2 A3 A4 : Nat} (x : Fin A0 → EReal)
    (w1 : Fin A0 → Fin A1 → EReal) (b1 : Fin A1 → EReal) (w2 : Fin A1 → Fin A2 → EReal) (b2 : Fin A2 → EReal)
    (w3 : Fin A2 → Fin A3 → EReal) (b3 : Fin A3 → EReal) (w4 : Fin A3 → Fin A4 → EReal) (b4 : Fin A4 → EReal) :
    Fin A4 → EReal :=
  fun n => Ideal.logistic (lin (relu (lin (relu (lin (relu (lin x w1 b1)) w2 b2)) w3 b3)) w4 b4 n)

theorem divNat_pair {m n : Nat} (a : Fin m) (b : Fin n) : (finProdFinEquiv (a, b)).divNat = a :=
  congrArg Prod.fst (finProdFinEquiv.symm_apply_apply (a, b))

theorem modNat_pair {m n : Nat} (a : Fin m) (b : Fin n) : (finProdFinEquiv (a, b)).modNat = b :=
  congrArg Prod.snd (finProdFinEquiv.symm_apply_apply (a, b))

/-- A dense layer on `G` rows laid side by side, against the block-diagonal matrix and the repeated bias, is
    the layer on each row: entry `n` of the long row is entry `n mod B` of row `n div B`. -/
theorem lin_packed {G A B : Nat} (e : Fin G → Fin G → EReal) (he : ∀ a b, e a b = if a = b then 1 else 0)
    (h : Fin G → Fin A → EReal) (w : Fin A → Fin B → EReal) (b : Fin B → EReal)
    (hp : Fin (G * A) → EReal) (wp : Fin (G * A) → Fin (G * B) → EReal) (bp : Fin (G * B) → EReal)
    (hh : ∀ k, hp k = h k.divNat k.modNat)
    (hw : ∀ k n, wp k n = e k.divNat n.divNat * w k.modNat n.modNat)
    (hb : ∀ n, bp n = b n.modNat) (n : Fin (G * B)) :
    lin hp wp bp n = lin (h n.divNat) w b n.modNat := by
  unfold lin
  rw [hb]
  congr 1
  rw [← Equiv.sum_comp finProdFinEquiv, Fintype.sum_prod_type, Finset.sum_eq_single n.divNat]
  · refine Finset.sum_congr rfl fun j _ => ?_
    rw [hh, hw, divNat_pair, modNat_pair, he, if_pos rfl, one_mul]
  · intro g _ hg
    refine Finset.sum_eq_zero fun j _ => ?_
    rw [hw, divNat_pair, he, if_neg hg, zero_mul, mul_zero]
  · intro hn; exact absurd (Finset.mem_univ _) hn

/-- The rectifier does not care how the row is laid out. -/
theorem relu_packed {G B : Nat} (h : Fin G → Fin B → EReal) (hp : Fin (G * B) → EReal)
    (hh : ∀ k, hp k = h k.divNat k.modNat) (k : Fin (G * B)) :
    relu hp k = relu (h k.divNat) k.modNat := by
  unfold relu; rw [hh]

/-- The whole network on `G` rows laid side by side, with every layer's matrix block-diagonal and every bias
    repeated, is the network on each row. -/
theorem net_packed {G A0 A1 A2 A3 A4 : Nat} (e : Fin G → Fin G → EReal) (he : ∀ a b, e a b = if a = b then 1 else 0)
    (x : Fin G → Fin A0 → EReal)
    (w1 : Fin A0 → Fin A1 → EReal) (b1 : Fin A1 → EReal) (w2 : Fin A1 → Fin A2 → EReal) (b2 : Fin A2 → EReal)
    (w3 : Fin A2 → Fin A3 → EReal) (b3 : Fin A3 → EReal) (w4 : Fin A3 → Fin A4 → EReal) (b4 : Fin A4 → EReal)
    (xp : Fin (G * A0) → EReal)
    (w1p : Fin (G * A0) → Fin (G * A1) → EReal) (b1p : Fin (G * A1) → EReal)
    (w2p : Fin (G * A1) → Fin (G * A2) → EReal) (b2p : Fin (G * A2) → EReal)
    (w3p : Fin (G * A2) → Fin (G * A3) → EReal) (b3p : Fin (G * A3) → EReal)
    (w4p : Fin (G * A3) → Fin (G * A4) → EReal) (b4p : Fin (G * A4) → EReal)
    (hx : ∀ k, xp k = x k.divNat k.modNat)
    (hw1 : ∀ k n, w1p k n = e k.divNat n.divNat * w1 k.modNat n.modNat) (hb1 : ∀ n, b1p n = b1 n.modNat)
    (hw2 : ∀ k n, w2p k n = e k.divNat n.divNat * w2 k.modNat n.modNat) (hb2 : ∀ n, b2p n = b2 n.modNat)
    (hw3 : ∀ k n, w3p k n = e k.divNat n.divNat * w3 k.modNat n.modNat) (hb3 : ∀ n, b3p n = b3 n.modNat)
    (hw4 : ∀ k n, w4p k n = e k.divNat n.divNat * w4 k.modNat n.modNat) (hb4 : ∀ n, b4p n = b4 n.modNat)
    (n : Fin (G * A4)) :
    net xp w1p b1p w2p b2p w3p b3p w4p b4p n = net (x n.divNat) w1 b1 w2 b2 w3 b3 w4 b4 n.modNat := by
  unfold net
  congr 1
  refine lin_packed e he (fun g => relu (lin (relu (lin (relu (lin (x g) w1 b1)) w2 b2)) w3 b3)) w4 b4 _ _ _
    (fun k => ?_) hw4 hb4 n
  refine relu_packed (fun g => lin (relu (lin (relu (lin (x g) w1 b1)) w2 b2)) w3 b3) _ (fun k => ?_) k
  refine lin_packed e he (fun g => relu (lin (relu (lin (x g) w1 b1)) w2 b2)) w3 b3 _ _ _ (fun k => ?_) hw3 hb3 k
  refine relu_packed (fun g => lin (relu (lin (x g) w1 b1)) w2 b2) _ (fun k => ?_) k
  refine lin_packed e he (fun g => relu (lin (x g) w1 b1)) w2 b2 _ _ _ (fun k => ?_) hw2 hb2 k
  refine relu_packed (fun g => lin (x g) w1 b1) _ (fun k => ?_) k
  exact lin_packed e he x w1 b1 _ _ _ hx hw1 hb1 k

end Cert.Mlp

end
-- ==== Proof.Spec.lean ====
/-
  The function both programs compute: the result's entry `(r, 0)` is the four-layer network of row `r` of `x`.
-/
import Idealize.ShloMosaic.Lib.ValueIdx
import proofs.«158514_g2000605162513149_pallasbulk_511_2_alg».proof.Proof.Mlp

noncomputable section

namespace Cert.Spec

open Idealize.ShloMosaic Idealize.ShloMosaic.ValueIdx

/-- Entry `(r, q)` of the result (`q` ranges over the one output feature). -/
def G (x : (⟨2, ![262144, 30]⟩ : Shape).Idx → EReal)
    (w1 : (⟨2, ![30, 32]⟩ : Shape).Idx → EReal) (b1 : (⟨2, ![1, 32]⟩ : Shape).Idx → EReal)
    (w2 : (⟨2, ![32, 16]⟩ : Shape).Idx → EReal) (b2 : (⟨2, ![1, 16]⟩ : Shape).Idx → EReal)
    (w3 : (⟨2, ![16, 8]⟩ : Shape).Idx → EReal) (b3 : (⟨2, ![1, 8]⟩ : Shape).Idx → EReal)
    (w4 : (⟨2, ![8, 1]⟩ : Shape).Idx → EReal) (b4 : (⟨2, ![1, 1]⟩ : Shape).Idx → EReal) :
    (⟨2, ![262144, 1]⟩ : Shape).Idx → EReal := fun i =>
  Mlp.net (fun j => x (ix2 (i 0) j)) (fun k n => w1 (ix2 k n)) (fun n => b1 (ix2 0 n))
    (fun k n => w2 (ix2 k n)) (fun n => b2 (ix2 0 n)) (fun k n => w3 (ix2 k n)) (fun n => b3 (ix2 0 n))
    (fun k n => w4 (ix2 k n)) (fun n => b4 (ix2 0 n)) (i 1)

end Cert.Spec

end
-- ==== Proof.RefValue.lean ====
/-
  What the row-by-row program computes.  Each grid point `t` handles rows `2048 t … 2048 t + 2047` of the batch;
  the weights and biases are the same whole arrays at every point.  The body's result at row `y` of the block is the
  network (`Mlp.net`) of row `y` of the block of `x`, hence of row `2048 t + y` of `x`; the 128 blocks tile the
  result, so the result array is the network of each row of `x`.
-/
import proofs.«158514_g2000605162513149_pallasbulk_511_2_alg».proof.Defs
import proofs.«158514_g2000605162513149_pallasbulk_511_2_alg».proof.Proof.Gen.ReferenceIdeal.Frame
import proofs.«158514_g2000605162513149_pallasbulk_511_2_alg».proof.Proof.Gen.ReferenceIdeal.Value
import proofs.«158514_g2000605162513149_pallasbulk_511_2_alg».proof.Proof.LibPlainDot
import proofs.«158514_g2000605162513149_pallasbulk_511_2_alg».proof.Proof.Mlp
import proofs.«158514_g2000605162513149_pallasbulk_511_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Value

theorem d1 : dot_S2048x30_S30x32_S2048x32_1_0_0_1_n_n = DotDims.plain 2048 30 32 := rfl
theorem d2 : dot_S2048x32_S32x16_S2048x16_1_0_0_1_n_n = DotDims.plain 2048 32 16 := rfl
theorem d3 : dot_S2048x16_S16x8_S2048x8_1_0_0_1_n_n = DotDims.plain 2048 16 8 := rfl
theorem d4 : dot_S2048x8_S8x1_S2048x1_1_0_0_1_n_n = DotDims.plain 2048 8 1 := rfl

/-- The body's arithmetic at row `y`: the network of row `y` of the block of `x`. -/
theorem pay_apply (x0 : Vec Ideal S2048x30 .f32) (x1 : Vec Ideal S30x32 .f32) (x2 : Vec Ideal S1x32 .f32)
    (x3 : Vec Ideal S32x16 .f32) (x4 : Vec Ideal S1x16 .f32) (x5 : Vec Ideal S16x8 .f32) (x6 : Vec Ideal S1x8 .f32)
    (x7 : Vec Ideal S8x1 .f32) (x8 : Vec Ideal S1x1 .f32) (y : Fin 2048) (q : Fin 1) :
    k0_pay1 (F := Ideal) x0 x1 x2 x3 x4 x5 x6 x7 x8 (ix2 y q)
      = Mlp.net (fun j => x0 (ix2 y j)) (fun k n => x1 (ix2 k n)) (fun n => x2 (ix2 0 n))
          (fun k n => x3 (ix2 k n)) (fun n => x4 (ix2 0 n)) (fun k n => x5 (ix2 k n)) (fun n => x6 (ix2 0 n))
          (fun k n => x7 (ix2 k n)) (fun n => x8 (ix2 0 n)) q := by
  unfold k0_pay1 Mlp.net Mlp.lin Mlp.relu
  simp only [d1, d2, d3, d4, logistic, addf_apply, maximumf_apply, broadcast_apply, PlainDot.matmul_zero_apply,
    PlainDot.broadcastTo_row_apply, Ideal.logistic_def, Ideal.ofBits_def, Ideal.ofBits_zero_f32]

variable (m : (ℓ : Loc nD τ sig) → Buf (Elt Ideal) ℓ) (ρ : Dev nD → PrngReg)

theorem hz : (![0, 0] : Fin 2 → Nat) = fun _ => 0 := funext fun a => by fin_cases a <;> rfl

/-- The index maps over the 128 grid points: the blocks of `x` and of the result move down with the point, the
    weights and biases stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 128 := lt_of_lt_of_eq t.isLt (show cfg0.N = 128 from N_0)

/-- Row `y` of point `t`'s block of `x` is row `2048 t + y` of `x`. -/
theorem xblk_apply (c : Dev nD) (t : Fin cfg0.N) (y : Fin 2048) (j : Fin 30) :
    (iblk m c 0 t : Vec Ideal S2048x30 .f32) (ix2 y j)
      = (m ((c : Thread nD τ).loc main_arg0) : S262144x30.Idx → EReal)
          (ix2 ⟨2048 * t.val + y.val, by have := t_lt t; have := y.isLt; omega⟩ j) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 2048 + 1 * y.val = 2048 * t.val + y.val; rw [e0]; omega
  | ⟨1, _⟩ => show win0_0.index t (1 : Fin 2) * 30 + 1 * j.val = j.val; rw [e1]; omega

/-! The weights' and biases' blocks are the whole arrays, at every point. -/

theorem wblk1 (c : Dev nD) (t : Fin cfg0.N) : (iblk m c 1 t : Vec Ideal S30x32 .f32) = m ((c : Thread nD τ).loc main_arg1) := by
  obtain ⟨-, -, e0, e1, -⟩ := idx_facts t
  have hz' : (fun a => win0_1.index t a * main_arg1.ty.shape.size a) = fun _ => 0 :=
    funext fun a => by
      match a with
      | ⟨0, _⟩ => (show win0_1.index t (0 : Fin 2) * 30 = 0); rw [e0]
      | ⟨1, _⟩ => (show win0_1.index t (1 : Fin 2) * 32 = 0); rw [e1]
  exact Memref.read_access_unit_zero (Elt Ideal) main_arg1 hz' (fun a => by rw [congrFun hz' a]; simp) _

theorem wblk2 (c : Dev nD) (t : Fin cfg0.N) : (iblk m c 2 t : Vec Ideal S1x32 .f32) = m ((c : Thread nD τ).loc main_arg2) := by
  obtain ⟨-, -, -, -, e0, e1, -⟩ := idx_facts t
  have hz' : (fun a => win0_2.index t a * main_arg2.ty.shape.size a) = fun _ => 0 :=
    funext fun a => by
      match a with
      | ⟨0, _⟩ => (show win0_2.index t (0 : Fin 2) * 1 = 0); rw [e0]
      | ⟨1, _⟩ => (show win0_2.index t (1 : Fin 2) * 32 = 0); rw [e1]
  exact Memref.read_access_unit_zero (Elt Ideal) main_arg2 hz' (fun a => by rw [congrFun hz' a]; simp) _

theorem wblk3 (c : Dev nD) (t : Fin cfg0.N) : (iblk m c 3 t : Vec Ideal S32x16 .f32) = m ((c : Thread nD τ).loc main_arg3) := by
  obtain ⟨-, -, -, -, -, -, e0, e1, -⟩ := idx_facts t
  have hz' : (fun a => win0_3.index t a * main_arg3.ty.shape.size a) = fun _ => 0 :=
    funext fun a => by
      match a with
      | ⟨0, _⟩ => (show win0_3.index t (0 : Fin 2) * 32 = 0); rw [e0]
      | ⟨1, _⟩ => (show win0_3.index t (1 : Fin 2) * 16 = 0); rw [e1]
  exact Memref.read_access_unit_zero (Elt Ideal) main_arg3 hz' (fun a => by rw [congrFun hz' a]; simp) _

theorem wblk4 (c : Dev nD) (t : Fin cfg0.N) : (iblk m c 4 t : Vec Ideal S1x16 .f32) = m ((c : Thread nD τ).loc main_arg4) := by
  obtain ⟨-, -, -, -, -, -, -, -, e0, e1, -⟩ := idx_facts t
  have hz' : (fun a => win0_4.index t a * main_arg4.ty.shape.size a) = fun _ => 0 :=
    funext fun a => by
      match a with
      | ⟨0, _⟩ => (show win0_4.index t (0 : Fin 2) * 1 = 0); rw [e0]
      | ⟨1, _⟩ => (show win0_4.index t (1 : Fin 2) * 16 = 0); rw [e1]
  exact Memref.read_access_unit_zero (Elt Ideal) main_arg4 hz' (fun a => by rw [congrFun hz' a]; simp) _

theorem wblk5 (c : Dev nD) (t : Fin cfg0.N) : (iblk m c 5 t : Vec Ideal S16x8 .f32) = m ((c : Thread nD τ).loc main_arg5) := by
  obtain ⟨-, -, -, -, -, -, -, -, -, -, e0, e1, -⟩ := idx_facts t
  have hz' : (fun a => win0_5.index t a * main_arg5.ty.shape.size a) = fun _ => 0 :=
    funext fun a => by
      match a with
      | ⟨0, _⟩ => (show win0_5.index t (0 : Fin 2) * 16 = 0); rw [e0]
      | ⟨1, _⟩ => (show win0_5.index t (1 : Fin 2) * 8 = 0); rw [e1]
  exact Memref.read_access_unit_zero (Elt Ideal) main_arg5 hz' (fun a => by rw [congrFun hz' a]; simp) _

theorem wblk6 (c : Dev nD) (t : Fin cfg0.N) : (iblk m c 6 t : Vec Ideal S1x8 .f32) = m ((c : Thread nD τ).loc main_arg6) := by
  obtain ⟨-, -, -, -, -, -, -, -, -, -, -, -, e0, e1, -⟩ := idx_facts t
  have hz' : (fun a => win0_6.index t a * main_arg6.ty.shape.size a) = fun _ => 0 :=
    funext fun a => by
      match a with
      | ⟨0, _⟩ => (show win0_6.index t (0 : Fin 2) * 1 = 0); rw [e0]
      | ⟨1, _⟩ => (show win0_6.index t (1 : Fin 2) * 8 = 0); rw [e1]
  exact Memref.read_access_unit_zero (Elt Ideal) main_arg6 hz' (fun a => by rw [congrFun hz' a]; simp) _

theorem wblk7 (c : Dev nD) (t : Fin cfg0.N) : (iblk m c 7 t : Vec Ideal S8x1 .f32) = m ((c : Thread nD τ).loc main_arg7) := by
  obtain ⟨-, -, -, -, -, -, -, -, -, -, -, -, -, -, e0, e1, -⟩ := idx_facts t
  have hz' : (fun a => win0_7.index t a * main_arg7.ty.shape.size a) = fun _ => 0 :=
    funext fun a => by
      match a with
      | ⟨0, _⟩ => (show win0_7.index t (0 : Fin 2) * 8 = 0); rw [e0]
      | ⟨1, _⟩ => (show win0_7.index t (1 : Fin 2) * 1 = 0); rw [e1]
  exact Memref.read_access_unit_zero (Elt Ideal) main_arg7 hz' (fun a => by rw [congrFun hz' a]; simp) _

theorem wblk8 (c : Dev nD) (t : Fin cfg0.N) : (iblk m c 8 t : Vec Ideal S1x1 .f32) = m ((c : Thread nD τ).loc main_arg8) := by
  obtain ⟨-, -, -, -, -, -, -, -, -, -, -, -, -, -, -, -, e0, e1, -⟩ := idx_facts t
  have hz' : (fun a => win0_8.index t a * main_arg8.ty.shape.size a) = fun _ => 0 :=
    funext fun a => by
      match a with
      | ⟨0, _⟩ => (show win0_8.index t (0 : Fin 2) * 1 = 0); rw [e0]
      | ⟨1, _⟩ => (show win0_8.index t (1 : Fin 2) * 1 = 0); rw [e1]
  exact Memref.read_access_unit_zero (Elt Ideal) main_arg8 hz' (fun a => by rw [congrFun hz' a]; simp) _

/-- WHAT POINT `t` WRITES BACK is block `t` of the network of every row. -/
theorem flushed_eq (c : Dev nD) (t : Fin cfg0.N) :
    (dats m 0 c).flushed 9 t = ((cfg0.win 9).blk t).view.read (Elt Ideal)
      (Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  rw [Value.flushed9]
  unfold out0_9
  rw [View.canon_unit_zero hz]
  simp only [View.ld_unit_zero (S := S2048x30) hz, View.ld_unit_zero (S := S30x32) hz, View.ld_unit_zero (S := S1x32) hz,
    View.ld_unit_zero (S := S32x16) hz, View.ld_unit_zero (S := S1x16) hz, View.ld_unit_zero (S := S16x8) hz,
    View.ld_unit_zero (S := S1x8) hz, View.ld_unit_zero (S := S8x1) hz, View.ld_unit_zero (S := S1x1) hz]
  rw [wblk1, wblk2, wblk3, wblk4, wblk5, wblk6, wblk7, wblk8]
  funext j
  obtain ⟨y, q, rfl⟩ : ∃ (y : Fin 2048) (q : Fin 1), j = ix2 y q := ⟨j 0, j 1, eq_ix2 j⟩
  rw [View.read_apply]
  obtain ⟨-, -, -, -, -, -, -, -, -, -, -, -, -, -, -, -, -, -, e0, e1⟩ := idx_facts t
  have he : ((View.whole main_v0).slice ((win0 9).rect t)).emb (ix2 y q)
      = (ix2 ⟨2048 * t.val + y.val, by have := t_lt t; have := y.isLt; omega⟩ q : S262144x1.Idx) := by
    funext a
    apply Fin.ext
    match a with
    | ⟨0, _⟩ => show win0_9.index t (0 : Fin 2) * 2048 + 1 * y.val = 2048 * t.val + y.val; rw [e0]; omega
    | ⟨1, _⟩ => show win0_9.index t (1 : Fin 2) * 1 + 1 * q.val = q.val; rw [e1]; omega
  show k0_pay1 (F := Ideal) (iblk m c 0 t) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) (ix2 y q)
      = Spec.G (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) (((View.whole main_v0).slice ((win0 9).rect t)).emb (ix2 y q))
  rw [he]
  refine (pay_apply (iblk m c 0 t) (m (c.tc.loc main_arg1)) (m (c.tc.loc main_arg2)) (m (c.tc.loc main_arg3))
        (m (c.tc.loc main_arg4)) (m (c.tc.loc main_arg5)) (m (c.tc.loc main_arg6)) (m (c.tc.loc main_arg7))
        (m (c.tc.loc main_arg8)) y q).trans ?_
  unfold Spec.G
  simp only [xblk_apply]

/-- An index of the result is in point `t`'s block iff each coordinate is in the block's range on its axis. -/
theorem mem_blk (t : Fin cfg0.N) (i : S262144x1.Idx) :
    i ∈ ((cfg0.win 9).blk t).view.set ↔ ∀ a : Fin 2, win0_9.index t a * S2048x1.size a ≤ (i a).val ∧ (i a).val < win0_9.index t a * S2048x1.size a + S2048x1.size a := by
  show i ∈ ((View.whole main_v0).slice (win0_9.rect t)).set ↔ _
  rw [View.set_slice_whole, Rect.mem_set_unit]
  exact Iff.rfl

/-- Row `r` of the result lies in the block of point `r / 2048`: the 128 blocks tile the result, which therefore
    ends as the network of every row. -/
theorem final (c : Dev nD) : (dats m 0 c).arrAt 9 cfg0.N =
      Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (dats m 0 c).arrAt_eq_of_cover 9 _ (fun t _ => flushed_eq m c t) fun i => by
    have hi0 : (i 0).val < 262144 := (i 0).isLt
    have hi1 : (i 1).val < 1 := (i 1).isLt
    have hN : cfg0.N = 128 := N_0
    refine ⟨⟨(i 0).val / 2048, by rw [hN]; omega⟩, flush0_9 _, ?_⟩
    rw [mem_blk]
    obtain ⟨-, -, -, -, -, -, -, -, -, -, -, -, -, -, -, -, -, -, e0, e1⟩ := idx_facts ⟨(i 0).val / 2048, by rw [hN]; omega⟩
    intro a
    match a with
    | ⟨0, _⟩ =>
      show win0_9.index _ (0 : Fin 2) * 2048 ≤ (i 0).val ∧ (i 0).val < win0_9.index _ (0 : Fin 2) * 2048 + 2048
      rw [e0]; show (i 0).val / 2048 * 2048 ≤ (i 0).val ∧ (i 0).val < (i 0).val / 2048 * 2048 + 2048; omega
    | ⟨1, _⟩ =>
      show win0_9.index _ (1 : Fin 2) * 1 ≤ (i 1).val ∧ (i 1).val < win0_9.index _ (1 : Fin 2) * 1 + 1
      rw [e1]; omega

/-- The run, read: the result array is the network of every row of `x`; the arguments are unchanged. -/
theorem run : θ_run defs (onTc (τ := τ) (main (F := Ideal))) ⟨m, fun _ => 0, ρ⟩ fun r => ∀ c : Dev nD,
      r.2.mem ((c : Thread nD τ).loc main_v0) =
        Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.ReferenceIdeal.Hand

end
-- ==== Proof.KerHost.lean ====
/-
  What the packing program hands its kernel.  Before the launch the host lays eight consecutive rows of `x` side by
  side (a row-major reshape: packed entry `(P, k)` is entry `(8P + k / 30, k % 30)` of `x`), builds for each layer
  the Kronecker product of the 8×8 identity with the layer's matrix (entry `(k, n)` is
  `δ (k / A) (n / B) · W (k % A, n % B)`), and repeats each bias eight times (entry `n` is `b (n % B)`).  The
  identity is an integer comparison of two iotas converted to a float: `1` on the diagonal, `0` off it.
-/
import proofs.«158514_g2000605162513149_pallasbulk_511_2_alg».proof.Defs
import proofs.«158514_g2000605162513149_pallasbulk_511_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.KernelIdeal.Host

open Cert.KernelIdeal Cert.KernelIdeal.Gen

/-- The 8×8 identity as the host computes it. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_apply (a b : Fin 8) : eye (ix2 a b) = if a = b then (1 : EReal) else 0 := by
  have hbit : IntOp.cmpi .eq (IntOp.addi (BitVec.ofNat 32 a.val) 0#32) (BitVec.ofNat 32 b.val) = 1#1 ↔ a = b := by
    rw [StableHlo.Predicate.cmpi_eq_iff]
    show BitVec.ofNat 32 a.val + 0#32 = BitVec.ofNat 32 b.val ↔ a = b
    rw [BitVec.add_zero]
    constructor
    · intro h
      have h' := congrArg BitVec.toNat h
      rw [BitVec.toNat_ofNat, BitVec.toNat_ofNat] at h'
      apply Fin.ext
      have := a.isLt; have := b.isLt; omega
    · rintro rfl; rfl
  show (((IntOp.cmpi .eq (IntOp.addi (BitVec.ofNat 32 a.val) 0#32) (BitVec.ofNat 32 b.val)).toNat : ℝ) : EReal) = _
  by_cases h : a = b
  · rw [if_pos h, hbit.mpr h]; simp
  · rw [if_neg h, eq_zero_of_ne_one (mt hbit.mp h)]; simp

variable (m : (ℓ : Loc nD τ sig) → Buf (Elt Ideal) ℓ)

/-! ## The packed batch -/

set_option maxHeartbeats 2000000 in
theorem xp_eq (c : Dev nD) : (V m c main_v0 : S32768x240.Idx → EReal)
    = shapeCast S32768x240 (m ((c : Thread nD τ).loc main_arg0)) shapeCasts_S262144x30_S32768x240 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem xp_apply (c : Dev nD) (p : Fin 32768) (k : Fin 240) :
    (V m c main_v0 : S32768x240.Idx → EReal) (ix2 p k)
      = (m ((c : Thread nD τ).loc main_arg0) : S262144x30.Idx → EReal)
          (ix2 ⟨8 * p.val + k.val / 30, by have := p.isLt; have := k.isLt; omega⟩ ⟨k.val % 30, Nat.mod_lt _ (by decide)⟩) := by
  rw [xp_eq]
  refine shapeCast_apply (s := S262144x30) (t := S32768x240) _ _ (ix2 p k) (ix2 _ _) ?_
  rw [Shape.rowMajor_val_two, Shape.rowMajor_val_two]
  show (8 * p.val + k.val / 30) * 30 + k.val % 30 = p.val * 240 + k.val
  omega

/-! ## Layer 1 -/

set_option maxHeartbeats 2000000 in
theorem w1p_eq (c : Dev nD) : (V m c main_v8 : S240x256.Idx → EReal)
    = truncf .bf16 (shapeCast S240x256 (mulf
        (broadcastInDim S8x30x8x32 ![0, 1, 2, 3] bcast_S8x1x8x1_S8x30x8x32_0_1_2_3 (broadcastInDim S8x1x8x1 ![0, 2] bcast_S8x8_S8x1x8x1_0_2 eye))
        (broadcastInDim S8x30x8x32 ![0, 1, 2, 3] bcast_S1x30x1x32_S8x30x8x32_0_1_2_3 (broadcastInDim S1x30x1x32 ![1, 3] bcast_S30x32_S1x30x1x32_1_3
          (m ((c : Thread nD τ).loc main_arg1))))) shapeCasts_S8x30x8x32_S240x256) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem w1p_apply (c : Dev nD) (k : Fin 240) (n : Fin 256) :
    (V m c main_v8 : S240x256.Idx → EReal) (ix2 k n)
      = (if (⟨k.val / 30, by have := k.isLt; omega⟩ : Fin 8) = (⟨n.val / 32, by have := n.isLt; omega⟩ : Fin 8) then (1 : EReal) else 0)
        * (m ((c : Thread nD τ).loc main_arg1) : S30x32.Idx → EReal) (ix2 (⟨k.val % 30, Nat.mod_lt _ (by decide)⟩ : Fin 30) (⟨n.val % 32, Nat.mod_lt _ (by decide)⟩ : Fin 32)) := by
  rw [w1p_eq, truncf_apply,
    shapeCast_apply _ _ (ix2 k n) (ix4 (⟨k.val / 30, by have := k.isLt; omega⟩ : Fin 8) (⟨k.val % 30, Nat.mod_lt _ (by decide)⟩ : Fin 30) (⟨n.val / 32, by have := n.isLt; omega⟩ : Fin 8) (⟨n.val % 32, Nat.mod_lt _ (by decide)⟩ : Fin 32))
      (by rw [Shape.rowMajor_val_four, Shape.rowMajor_val_two]
          show ((k.val / 30 * 30 + k.val % 30) * 8 + n.val / 32) * 32 + n.val % 32 = k.val * 256 + n.val
          omega),
    mulf_apply,
    broadcastInDim_apply ![0, 1, 2, 3] bcast_S8x1x8x1_S8x30x8x32_0_1_2_3 _ _
      (ix4 (⟨k.val / 30, by have := k.isLt; omega⟩ : Fin 8) (0 : Fin 1) (⟨n.val / 32, by have := n.isLt; omega⟩ : Fin 8) (0 : Fin 1))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![0, 2] bcast_S8x8_S8x1x8x1_0_2 _ _ (ix2 (⟨k.val / 30, by have := k.isLt; omega⟩ : Fin 8) (⟨n.val / 32, by have := n.isLt; omega⟩ : Fin 8))
      (fun a => by match a with | ⟨0, _⟩ => (first | rfl | exact Nat.mod_one _) | ⟨1, _⟩ => (first | rfl | exact Nat.mod_one _)),
    broadcastInDim_apply ![0, 1, 2, 3] bcast_S1x30x1x32_S8x30x8x32_0_1_2_3 _ _
      (ix4 (0 : Fin 1) (⟨k.val % 30, Nat.mod_lt _ (by decide)⟩ : Fin 30) (0 : Fin 1) (⟨n.val % 32, Nat.mod_lt _ (by decide)⟩ : Fin 32))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![1, 3] bcast_S30x32_S1x30x1x32_1_3 _ _ (ix2 (⟨k.val % 30, Nat.mod_lt _ (by decide)⟩ : Fin 30) (⟨n.val % 32, Nat.mod_lt _ (by decide)⟩ : Fin 32))
      (fun a => by match a with | ⟨0, _⟩ => (first | rfl | exact Nat.mod_one _) | ⟨1, _⟩ => (first | rfl | exact Nat.mod_one _)),
    eye_apply]

set_option maxHeartbeats 2000000 in
theorem b1p_eq (c : Dev nD) : (V m c main_v11 : S1x256.Idx → EReal)
    = shapeCast S1x256 (broadcastInDim S1x1x8x32 ![0, 1, 2, 3] bcast_S1x1x1x32_S1x1x8x32_0_1_2_3
        (shapeCast S1x1x1x32 (m ((c : Thread nD τ).loc main_arg2)) shapeCasts_S1x32_S1x1x1x32)) shapeCasts_S1x1x8x32_S1x256 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem b1p_apply (c : Dev nD) (n : Fin 256) :
    (V m c main_v11 : S1x256.Idx → EReal) (ix2 0 n)
      = (m ((c : Thread nD τ).loc main_arg2) : S1x32.Idx → EReal) (ix2 0 (⟨n.val % 32, Nat.mod_lt _ (by decide)⟩ : Fin 32)) := by
  rw [b1p_eq,
    shapeCast_apply _ _ (ix2 (0 : Fin 1) n) (ix4 (0 : Fin 1) (0 : Fin 1) (⟨n.val / 32, by have := n.isLt; omega⟩ : Fin 8) (⟨n.val % 32, Nat.mod_lt _ (by decide)⟩ : Fin 32))
      (by rw [Shape.rowMajor_val_four, Shape.rowMajor_val_two]
          show ((0 * 1 + 0) * 8 + n.val / 32) * 32 + n.val % 32 = 0 * 256 + n.val
          omega),
    broadcastInDim_apply ![0, 1, 2, 3] bcast_S1x1x1x32_S1x1x8x32_0_1_2_3 _ _
      (ix4 (0 : Fin 1) (0 : Fin 1) (0 : Fin 1) (⟨n.val % 32, Nat.mod_lt _ (by decide)⟩ : Fin 32))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    shapeCast_apply _ _ (ix4 (0 : Fin 1) (0 : Fin 1) (0 : Fin 1) (⟨n.val % 32, Nat.mod_lt _ (by decide)⟩ : Fin 32)) (ix2 (0 : Fin 1) (⟨n.val % 32, Nat.mod_lt _ (by decide)⟩ : Fin 32))
      (by rw [Shape.rowMajor_val_four, Shape.rowMajor_val_two]
          show 0 * 32 + n.val % 32 = ((0 * 1 + 0) * 1 + 0) * 32 + n.val % 32
          omega)]

/-! ## Layer 2 -/

set_option maxHeartbeats 2000000 in
theorem w2p_eq (c : Dev nD) : (V m c main_v13 : S256x128.Idx → EReal)
    = truncf .bf16 (shapeCast S256x128 (mulf
        (broadcastInDim S8x32x8x16 ![0, 1, 2, 3] bcast_S8x1x8x1_S8x32x8x16_0_1_2_3 (broadcastInDim S8x1x8x1 ![0, 2] bcast_S8x8_S8x1x8x1_0_2 eye))
        (broadcastInDim S8x32x8x16 ![0, 1, 2, 3] bcast_S1x32x1x16_S8x32x8x16_0_1_2_3 (broadcastInDim S1x32x1x16 ![1, 3] bcast_S32x16_S1x32x1x16_1_3
          (m ((c : Thread nD τ).loc main_arg3))))) shapeCasts_S8x32x8x16_S256x128) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem w2p_apply (c : Dev nD) (k : Fin 256) (n : Fin 128) :
    (V m c main_v13 : S256x128.Idx → EReal) (ix2 k n)
      = (if (⟨k.val / 32, by have := k.isLt; omega⟩ : Fin 8) = (⟨n.val / 16, by have := n.isLt; omega⟩ : Fin 8) then (1 : EReal) else 0)
        * (m ((c : Thread nD τ).loc main_arg3) : S32x16.Idx → EReal) (ix2 (⟨k.val % 32, Nat.mod_lt _ (by decide)⟩ : Fin 32) (⟨n.val % 16, Nat.mod_lt _ (by decide)⟩ : Fin 16)) := by
  rw [w2p_eq, truncf_apply,
    shapeCast_apply _ _ (ix2 k n) (ix4 (⟨k.val / 32, by have := k.isLt; omega⟩ : Fin 8) (⟨k.val % 32, Nat.mod_lt _ (by decide)⟩ : Fin 32) (⟨n.val / 16, by have := n.isLt; omega⟩ : Fin 8) (⟨n.val % 16, Nat.mod_lt _ (by decide)⟩ : Fin 16))
      (by rw [Shape.rowMajor_val_four, Shape.rowMajor_val_two]
          show ((k.val / 32 * 32 + k.val % 32) * 8 + n.val / 16) * 16 + n.val % 16 = k.val * 128 + n.val
          omega),
    mulf_apply,
    broadcastInDim_apply ![0, 1, 2, 3] bcast_S8x1x8x1_S8x32x8x16_0_1_2_3 _ _
      (ix4 (⟨k.val / 32, by have := k.isLt; omega⟩ : Fin 8) (0 : Fin 1) (⟨n.val / 16, by have := n.isLt; omega⟩ : Fin 8) (0 : Fin 1))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![0, 2] bcast_S8x8_S8x1x8x1_0_2 _ _ (ix2 (⟨k.val / 32, by have := k.isLt; omega⟩ : Fin 8) (⟨n.val / 16, by have := n.isLt; omega⟩ : Fin 8))
      (fun a => by match a with | ⟨0, _⟩ => (first | rfl | exact Nat.mod_one _) | ⟨1, _⟩ => (first | rfl | exact Nat.mod_one _)),
    broadcastInDim_apply ![0, 1, 2, 3] bcast_S1x32x1x16_S8x32x8x16_0_1_2_3 _ _
      (ix4 (0 : Fin 1) (⟨k.val % 32, Nat.mod_lt _ (by decide)⟩ : Fin 32) (0 : Fin 1) (⟨n.val % 16, Nat.mod_lt _ (by decide)⟩ : Fin 16))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![1, 3] bcast_S32x16_S1x32x1x16_1_3 _ _ (ix2 (⟨k.val % 32, Nat.mod_lt _ (by decide)⟩ : Fin 32) (⟨n.val % 16, Nat.mod_lt _ (by decide)⟩ : Fin 16))
      (fun a => by match a with | ⟨0, _⟩ => (first | rfl | exact Nat.mod_one _) | ⟨1, _⟩ => (first | rfl | exact Nat.mod_one _)),
    eye_apply]

set_option maxHeartbeats 2000000 in
theorem b2p_eq (c : Dev nD) : (V m c main_v16 : S1x128.Idx → EReal)
    = shapeCast S1x128 (broadcastInDim S1x1x8x16 ![0, 1, 2, 3] bcast_S1x1x1x16_S1x1x8x16_0_1_2_3
        (shapeCast S1x1x1x16 (m ((c : Thread nD τ).loc main_arg4)) shapeCasts_S1x16_S1x1x1x16)) shapeCasts_S1x1x8x16_S1x128 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem b2p_apply (c : Dev nD) (n : Fin 128) :
    (V m c main_v16 : S1x128.Idx → EReal) (ix2 0 n)
      = (m ((c : Thread nD τ).loc main_arg4) : S1x16.Idx → EReal) (ix2 0 (⟨n.val % 16, Nat.mod_lt _ (by decide)⟩ : Fin 16)) := by
  rw [b2p_eq,
    shapeCast_apply _ _ (ix2 (0 : Fin 1) n) (ix4 (0 : Fin 1) (0 : Fin 1) (⟨n.val / 16, by have := n.isLt; omega⟩ : Fin 8) (⟨n.val % 16, Nat.mod_lt _ (by decide)⟩ : Fin 16))
      (by rw [Shape.rowMajor_val_four, Shape.rowMajor_val_two]
          show ((0 * 1 + 0) * 8 + n.val / 16) * 16 + n.val % 16 = 0 * 128 + n.val
          omega),
    broadcastInDim_apply ![0, 1, 2, 3] bcast_S1x1x1x16_S1x1x8x16_0_1_2_3 _ _
      (ix4 (0 : Fin 1) (0 : Fin 1) (0 : Fin 1) (⟨n.val % 16, Nat.mod_lt _ (by decide)⟩ : Fin 16))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    shapeCast_apply _ _ (ix4 (0 : Fin 1) (0 : Fin 1) (0 : Fin 1) (⟨n.val % 16, Nat.mod_lt _ (by decide)⟩ : Fin 16)) (ix2 (0 : Fin 1) (⟨n.val % 16, Nat.mod_lt _ (by decide)⟩ : Fin 16))
      (by rw [Shape.rowMajor_val_four, Shape.rowMajor_val_two]
          show 0 * 16 + n.val % 16 = ((0 * 1 + 0) * 1 + 0) * 16 + n.val % 16
          omega)]

/-! ## Layer 3 -/

set_option maxHeartbeats 2000000 in
theorem w3p_eq (c : Dev nD) : (V m c main_v18 : S128x64.Idx → EReal)
    = truncf .bf16 (shapeCast S128x64 (mulf
        (broadcastInDim S8x16x8x8 ![0, 1, 2, 3] bcast_S8x1x8x1_S8x16x8x8_0_1_2_3 (broadcastInDim S8x1x8x1 ![0, 2] bcast_S8x8_S8x1x8x1_0_2 eye))
        (broadcastInDim S8x16x8x8 ![0, 1, 2, 3] bcast_S1x16x1x8_S8x16x8x8_0_1_2_3 (broadcastInDim S1x16x1x8 ![1, 3] bcast_S16x8_S1x16x1x8_1_3
          (m ((c : Thread nD τ).loc main_arg5))))) shapeCasts_S8x16x8x8_S128x64) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem w3p_apply (c : Dev nD) (k : Fin 128) (n : Fin 64) :
    (V m c main_v18 : S128x64.Idx → EReal) (ix2 k n)
      = (if (⟨k.val / 16, by have := k.isLt; omega⟩ : Fin 8) = (⟨n.val / 8, by have := n.isLt; omega⟩ : Fin 8) then (1 : EReal) else 0)
        * (m ((c : Thread nD τ).loc main_arg5) : S16x8.Idx → EReal) (ix2 (⟨k.val % 16, Nat.mod_lt _ (by decide)⟩ : Fin 16) (⟨n.val % 8, Nat.mod_lt _ (by decide)⟩ : Fin 8)) := by
  rw [w3p_eq, truncf_apply,
    shapeCast_apply _ _ (ix2 k n) (ix4 (⟨k.val / 16, by have := k.isLt; omega⟩ : Fin 8) (⟨k.val % 16, Nat.mod_lt _ (by decide)⟩ : Fin 16) (⟨n.val / 8, by have := n.isLt; omega⟩ : Fin 8) (⟨n.val % 8, Nat.mod_lt _ (by decide)⟩ : Fin 8))
      (by rw [Shape.rowMajor_val_four, Shape.rowMajor_val_two]
          show ((k.val / 16 * 16 + k.val % 16) * 8 + n.val / 8) * 8 + n.val % 8 = k.val * 64 + n.val
          omega),
    mulf_apply,
    broadcastInDim_apply ![0, 1, 2, 3] bcast_S8x1x8x1_S8x16x8x8_0_1_2_3 _ _
      (ix4 (⟨k.val / 16, by have := k.isLt; omega⟩ : Fin 8) (0 : Fin 1) (⟨n.val / 8, by have := n.isLt; omega⟩ : Fin 8) (0 : Fin 1))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![0, 2] bcast_S8x8_S8x1x8x1_0_2 _ _ (ix2 (⟨k.val / 16, by have := k.isLt; omega⟩ : Fin 8) (⟨n.val / 8, by have := n.isLt; omega⟩ : Fin 8))
      (fun a => by match a with | ⟨0, _⟩ => (first | rfl | exact Nat.mod_one _) | ⟨1, _⟩ => (first | rfl | exact Nat.mod_one _)),
    broadcastInDim_apply ![0, 1, 2, 3] bcast_S1x16x1x8_S8x16x8x8_0_1_2_3 _ _
      (ix4 (0 : Fin 1) (⟨k.val % 16, Nat.mod_lt _ (by decide)⟩ : Fin 16) (0 : Fin 1) (⟨n.val % 8, Nat.mod_lt _ (by decide)⟩ : Fin 8))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![1, 3] bcast_S16x8_S1x16x1x8_1_3 _ _ (ix2 (⟨k.val % 16, Nat.mod_lt _ (by decide)⟩ : Fin 16) (⟨n.val % 8, Nat.mod_lt _ (by decide)⟩ : Fin 8))
      (fun a => by match a with | ⟨0, _⟩ => (first | rfl | exact Nat.mod_one _) | ⟨1, _⟩ => (first | rfl | exact Nat.mod_one _)),
    eye_apply]

set_option maxHeartbeats 2000000 in
theorem b3p_eq (c : Dev nD) : (V m c main_v21 : S1x64.Idx → EReal)
    = shapeCast S1x64 (broadcastInDim S1x1x8x8 ![0, 1, 2, 3] bcast_S1x1x1x8_S1x1x8x8_0_1_2_3
        (shapeCast S1x1x1x8 (m ((c : Thread nD τ).loc main_arg6)) shapeCasts_S1x8_S1x1x1x8)) shapeCasts_S1x1x8x8_S1x64 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem b3p_apply (c : Dev nD) (n : Fin 64) :
    (V m c main_v21 : S1x64.Idx → EReal) (ix2 0 n)
      = (m ((c : Thread nD τ).loc main_arg6) : S1x8.Idx → EReal) (ix2 0 (⟨n.val % 8, Nat.mod_lt _ (by decide)⟩ : Fin 8)) := by
  rw [b3p_eq,
    shapeCast_apply _ _ (ix2 (0 : Fin 1) n) (ix4 (0 : Fin 1) (0 : Fin 1) (⟨n.val / 8, by have := n.isLt; omega⟩ : Fin 8) (⟨n.val % 8, Nat.mod_lt _ (by decide)⟩ : Fin 8))
      (by rw [Shape.rowMajor_val_four, Shape.rowMajor_val_two]
          show ((0 * 1 + 0) * 8 + n.val / 8) * 8 + n.val % 8 = 0 * 64 + n.val
          omega),
    broadcastInDim_apply ![0, 1, 2, 3] bcast_S1x1x1x8_S1x1x8x8_0_1_2_3 _ _
      (ix4 (0 : Fin 1) (0 : Fin 1) (0 : Fin 1) (⟨n.val % 8, Nat.mod_lt _ (by decide)⟩ : Fin 8))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    shapeCast_apply _ _ (ix4 (0 : Fin 1) (0 : Fin 1) (0 : Fin 1) (⟨n.val % 8, Nat.mod_lt _ (by decide)⟩ : Fin 8)) (ix2 (0 : Fin 1) (⟨n.val % 8, Nat.mod_lt _ (by decide)⟩ : Fin 8))
      (by rw [Shape.rowMajor_val_four, Shape.rowMajor_val_two]
          show 0 * 8 + n.val % 8 = ((0 * 1 + 0) * 1 + 0) * 8 + n.val % 8
          omega)]

/-! ## Layer 4 -/

set_option maxHeartbeats 2000000 in
theorem w4p_eq (c : Dev nD) : (V m c main_v23 : S64x8.Idx → EReal)
    = truncf .bf16 (shapeCast S64x8 (mulf
        (broadcastInDim S8x8x8x1 ![0, 1, 2, 3] bcast_S8x1x8x1_S8x8x8x1_0_1_2_3 (broadcastInDim S8x1x8x1 ![0, 2] bcast_S8x8_S8x1x8x1_0_2 eye))
        (broadcastInDim S8x8x8x1 ![0, 1, 2, 3] bcast_S1x8x1x1_S8x8x8x1_0_1_2_3 (broadcastInDim S1x8x1x1 ![1, 3] bcast_S8x1_S1x8x1x1_1_3
          (m ((c : Thread nD τ).loc main_arg7))))) shapeCasts_S8x8x8x1_S64x8) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem w4p_apply (c : Dev nD) (k : Fin 64) (n : Fin 8) :
    (V m c main_v23 : S64x8.Idx → EReal) (ix2 k n)
      = (if (⟨k.val / 8, by have := k.isLt; omega⟩ : Fin 8) = (⟨n.val / 1, by have := n.isLt; omega⟩ : Fin 8) then (1 : EReal) else 0)
        * (m ((c : Thread nD τ).loc main_arg7) : S8x1.Idx → EReal) (ix2 (⟨k.val % 8, Nat.mod_lt _ (by decide)⟩ : Fin 8) (⟨n.val % 1, Nat.mod_lt _ (by decide)⟩ : Fin 1)) := by
  rw [w4p_eq, truncf_apply,
    shapeCast_apply _ _ (ix2 k n) (ix4 (⟨k.val / 8, by have := k.isLt; omega⟩ : Fin 8) (⟨k.val % 8, Nat.mod_lt _ (by decide)⟩ : Fin 8) (⟨n.val / 1, by have := n.isLt; omega⟩ : Fin 8) (⟨n.val % 1, Nat.mod_lt _ (by decide)⟩ : Fin 1))
      (by rw [Shape.rowMajor_val_four, Shape.rowMajor_val_two]
          show ((k.val / 8 * 8 + k.val % 8) * 8 + n.val / 1) * 1 + n.val % 1 = k.val * 8 + n.val
          omega),
    mulf_apply,
    broadcastInDim_apply ![0, 1, 2, 3] bcast_S8x1x8x1_S8x8x8x1_0_1_2_3 _ _
      (ix4 (⟨k.val / 8, by have := k.isLt; omega⟩ : Fin 8) (0 : Fin 1) (⟨n.val / 1, by have := n.isLt; omega⟩ : Fin 8) (0 : Fin 1))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![0, 2] bcast_S8x8_S8x1x8x1_0_2 _ _ (ix2 (⟨k.val / 8, by have := k.isLt; omega⟩ : Fin 8) (⟨n.val / 1, by have := n.isLt; omega⟩ : Fin 8))
      (fun a => by match a with | ⟨0, _⟩ => (first | rfl | exact Nat.mod_one _) | ⟨1, _⟩ => (first | rfl | exact Nat.mod_one _)),
    broadcastInDim_apply ![0, 1, 2, 3] bcast_S1x8x1x1_S8x8x8x1_0_1_2_3 _ _
      (ix4 (0 : Fin 1) (⟨k.val % 8, Nat.mod_lt _ (by decide)⟩ : Fin 8) (0 : Fin 1) (⟨n.val % 1, Nat.mod_lt _ (by decide)⟩ : Fin 1))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    broadcastInDim_apply ![1, 3] bcast_S8x1_S1x8x1x1_1_3 _ _ (ix2 (⟨k.val % 8, Nat.mod_lt _ (by decide)⟩ : Fin 8) (⟨n.val % 1, Nat.mod_lt _ (by decide)⟩ : Fin 1))
      (fun a => by match a with | ⟨0, _⟩ => (first | rfl | exact Nat.mod_one _) | ⟨1, _⟩ => (first | rfl | exact Nat.mod_one _)),
    eye_apply]

set_option maxHeartbeats 2000000 in
theorem b4p_eq (c : Dev nD) : (V m c main_v26 : S1x8.Idx → EReal)
    = shapeCast S1x8 (broadcastInDim S1x1x8x1 ![0, 1, 2, 3] bcast_S1x1x1x1_S1x1x8x1_0_1_2_3
        (shapeCast S1x1x1x1 (m ((c : Thread nD τ).loc main_arg8)) shapeCasts_S1x1_S1x1x1x1)) shapeCasts_S1x1x8x1_S1x8 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem b4p_apply (c : Dev nD) (n : Fin 8) :
    (V m c main_v26 : S1x8.Idx → EReal) (ix2 0 n)
      = (m ((c : Thread nD τ).loc main_arg8) : S1x1.Idx → EReal) (ix2 0 (⟨n.val % 1, Nat.mod_lt _ (by decide)⟩ : Fin 1)) := by
  rw [b4p_eq,
    shapeCast_apply _ _ (ix2 (0 : Fin 1) n) (ix4 (0 : Fin 1) (0 : Fin 1) (⟨n.val / 1, by have := n.isLt; omega⟩ : Fin 8) (⟨n.val % 1, Nat.mod_lt _ (by decide)⟩ : Fin 1))
      (by rw [Shape.rowMajor_val_four, Shape.rowMajor_val_two]
          show ((0 * 1 + 0) * 8 + n.val / 1) * 1 + n.val % 1 = 0 * 8 + n.val
          omega),
    broadcastInDim_apply ![0, 1, 2, 3] bcast_S1x1x1x1_S1x1x8x1_0_1_2_3 _ _
      (ix4 (0 : Fin 1) (0 : Fin 1) (0 : Fin 1) (⟨n.val % 1, Nat.mod_lt _ (by decide)⟩ : Fin 1))
      (fun a => by match a with | ⟨0, _⟩ => (first | rfl | exact Nat.mod_one _) | ⟨1, _⟩ => (first | rfl | exact Nat.mod_one _) | ⟨2, _⟩ => (first | rfl | exact Nat.mod_one _) | ⟨3, _⟩ => (first | rfl | exact Nat.mod_one _)),
    shapeCast_apply _ _ (ix4 (0 : Fin 1) (0 : Fin 1) (0 : Fin 1) (⟨n.val % 1, Nat.mod_lt _ (by decide)⟩ : Fin 1)) (ix2 (0 : Fin 1) (⟨n.val % 1, Nat.mod_lt _ (by decide)⟩ : Fin 1))
      (by rw [Shape.rowMajor_val_four, Shape.rowMajor_val_two]
          show 0 * 1 + n.val % 1 = ((0 * 1 + 0) * 1 + 0) * 1 + n.val % 1
          omega)]

end Cert.KernelIdeal.Host

end
-- ==== Proof.KerValue.lean ====
/-
  What the packing program computes.  Each grid point `t` handles packed rows `4096 t … 4096 t + 4095`; the body's
  result at packed row `y`, column `g` is the network (`Mlp.net`, at the packed widths 240 → 256 → 128 → 64 → 8) of
  packed row `y` of the block against the block-diagonal matrices and repeated biases the host built.  The eight blocks
  tile the packed result; the host's last reshape reads entry `(r, 0)` of the result at packed entry `(r / 8, r % 8)`.
-/
import proofs.«158514_g2000605162513149_pallasbulk_511_2_alg».proof.Defs
import proofs.«158514_g2000605162513149_pallasbulk_511_2_alg».proof.Proof.Gen.KernelIdeal.Frame
import proofs.«158514_g2000605162513149_pallasbulk_511_2_alg».proof.Proof.LibPlainDot
import proofs.«158514_g2000605162513149_pallasbulk_511_2_alg».proof.Proof.Mlp
import proofs.«158514_g2000605162513149_pallasbulk_511_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem d1 : dot_S4096x240_S240x256_S4096x256_1_0_0_1_n_n = DotDims.plain 4096 240 256 := rfl
theorem d2 : dot_S4096x256_S256x128_S4096x128_1_0_0_1_n_n = DotDims.plain 4096 256 128 := rfl
theorem d3 : dot_S4096x128_S128x64_S4096x64_1_0_0_1_n_n = DotDims.plain 4096 128 64 := rfl
theorem d4 : dot_S4096x64_S64x8_S4096x8_1_0_0_1_n_n = DotDims.plain 4096 64 8 := rfl

/-- The body's arithmetic at packed row `y`, column `g`: the network at the packed widths, of packed row `y`. -/
theorem pay_apply (x0 : Vec Ideal S4096x240 .f32) (x1 : Vec Ideal S240x256 .bf16) (x2 : Vec Ideal S1x256 .f32)
    (x3 : Vec Ideal S256x128 .bf16) (x4 : Vec Ideal S1x128 .f32) (x5 : Vec Ideal S128x64 .bf16) (x6 : Vec Ideal S1x64 .f32)
    (x7 : Vec Ideal S64x8 .bf16) (x8 : Vec Ideal S1x8 .f32) (y : Fin 4096) (g : Fin 8) :
    k0_pay1 (F := Ideal) (k0_pay2 (F := Ideal) x0 x1 x2 x3 x4 x5 x6 x7) x8 (ix2 y g)
      = Mlp.net (fun j => x0 (ix2 y j)) (fun k n => x1 (ix2 k n)) (fun n => x2 (ix2 0 n))
          (fun k n => x3 (ix2 k n)) (fun n => x4 (ix2 0 n)) (fun k n => x5 (ix2 k n)) (fun n => x6 (ix2 0 n))
          (fun k n => x7 (ix2 k n)) (fun n => x8 (ix2 0 n)) g := by
  unfold k0_pay1 k0_pay2 Mlp.net Mlp.lin Mlp.relu
  simp only [d1, d2, d3, d4, logistic, addf_apply, maximumf_apply, broadcast_apply, truncf_apply, shapeCast_self,
    PlainDot.matmul_zero_apply, PlainDot.broadcastTo_row_apply, Ideal.logistic_def, Ideal.ofBits_def, Ideal.ofBits_zero_f32]

variable (m : (ℓ : Loc nD τ sig) → Buf (Elt Ideal) ℓ) (ρ : Dev nD → PrngReg)

/-- The packed result as one function of the arrays the kernel is launched on. -/
def GP (xp : S32768x240.Idx → EReal) (w1p : S240x256.Idx → EReal) (b1p : S1x256.Idx → EReal)
    (w2p : S256x128.Idx → EReal) (b2p : S1x128.Idx → EReal) (w3p : S128x64.Idx → EReal) (b3p : S1x64.Idx → EReal)
    (w4p : S64x8.Idx → EReal) (b4p : S1x8.Idx → EReal) : S32768x8.Idx → EReal := fun i =>
  Mlp.net (fun j => xp (ix2 (i 0) j)) (fun k n => w1p (ix2 k n)) (fun n => b1p (ix2 0 n))
    (fun k n => w2p (ix2 k n)) (fun n => b2p (ix2 0 n)) (fun k n => w3p (ix2 k n)) (fun n => b3p (ix2 0 n))
    (fun k n => w4p (ix2 k n)) (fun n => b4p (ix2 0 n)) (i 1)

/-- The packed result of the arrays as the region finds them. -/
abbrev packed (c : Dev nD) : S32768x8.Idx → EReal :=
  GP (V m c main_v0) (V m c main_v8) (V m c main_v11) (V m c main_v13) (V m c main_v16) (V m c main_v18)
    (V m c main_v21) (V m c main_v23) (V m c main_v26)

theorem hz : (![0, 0] : Fin 2 → Nat) = fun _ => 0 := funext fun a => by fin_cases a <;> rfl

/-- The index maps over the 8 grid points: the blocks of the packed batch and of the packed result move down with the
    point, the matrices and biases stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 8 := lt_of_lt_of_eq t.isLt (show cfg0.N = 8 from N_0)

/-- Packed row `y` of point `t`'s block is packed row `4096 t + y`. -/
theorem xblk_apply (c : Dev nD) (t : Fin cfg0.N) (y : Fin 4096) (j : Fin 240) :
    (iblk m c 0 t : Vec Ideal S4096x240 .f32) (ix2 y j)
      = (V m c main_v0 : S32768x240.Idx → EReal)
          (ix2 ⟨4096 * t.val + y.val, by have := t_lt t; have := y.isLt; omega⟩ j) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 4096 + 1 * y.val = 4096 * t.val + y.val; rw [e0]; omega
  | ⟨1, _⟩ => show win0_0.index t (1 : Fin 2) * 240 + 1 * j.val = j.val; rw [e1]; omega

/-! The matrices' and biases' blocks are the whole arrays, at every point. -/

theorem wblk1 (c : Dev nD) (t : Fin cfg0.N) : (iblk m c 1 t : Vec Ideal S240x256 .bf16) = V m c main_v8 := by
  obtain ⟨-, -, e0, e1, -⟩ := idx_facts t
  have hz' : (fun a => win0_1.index t a * main_v8.ty.shape.size a) = fun _ => 0 :=
    funext fun a => by
      match a with
      | ⟨0, _⟩ => (show win0_1.index t (0 : Fin 2) * 240 = 0); rw [e0]
      | ⟨1, _⟩ => (show win0_1.index t (1 : Fin 2) * 256 = 0); rw [e1]
  exact Memref.read_access_unit_zero (Elt Ideal) main_v8 hz' (fun a => by rw [congrFun hz' a]; simp) _

theorem wblk2 (c : Dev nD) (t : Fin cfg0.N) : (iblk m c 2 t : Vec Ideal S1x256 .f32) = V m c main_v11 := by
  obtain ⟨-, -, -, -, e0, e1, -⟩ := idx_facts t
  have hz' : (fun a => win0_2.index t a * main_v11.ty.shape.size a) = fun _ => 0 :=
    funext fun a => by
      match a with
      | ⟨0, _⟩ => (show win0_2.index t (0 : Fin 2) * 1 = 0); rw [e0]
      | ⟨1, _⟩ => (show win0_2.index t (1 : Fin 2) * 256 = 0); rw [e1]
  exact Memref.read_access_unit_zero (Elt Ideal) main_v11 hz' (fun a => by rw [congrFun hz' a]; simp) _

theorem wblk3 (c : Dev nD) (t : Fin cfg0.N) : (iblk m c 3 t : Vec Ideal S256x128 .bf16) = V m c main_v13 := by
  obtain ⟨-, -, -, -, -, -, e0, e1, -⟩ := idx_facts t
  have hz' : (fun a => win0_3.index t a * main_v13.ty.shape.size a) = fun _ => 0 :=
    funext fun a => by
      match a with
      | ⟨0, _⟩ => (show win0_3.index t (0 : Fin 2) * 256 = 0); rw [e0]
      | ⟨1, _⟩ => (show win0_3.index t (1 : Fin 2) * 128 = 0); rw [e1]
  exact Memref.read_access_unit_zero (Elt Ideal) main_v13 hz' (fun a => by rw [congrFun hz' a]; simp) _

theorem wblk4 (c : Dev nD) (t : Fin cfg0.N) : (iblk m c 4 t : Vec Ideal S1x128 .f32) = V m c main_v16 := by
  obtain ⟨-, -, -, -, -, -, -, -, e0, e1, -⟩ := idx_facts t
  have hz' : (fun a => win0_4.index t a * main_v16.ty.shape.size a) = fun _ => 0 :=
    funext fun a => by
      match a with
      | ⟨0, _⟩ => (show win0_4.index t (0 : Fin 2) * 1 = 0); rw [e0]
      | ⟨1, _⟩ => (show win0_4.index t (1 : Fin 2) * 128 = 0); rw [e1]
  exact Memref.read_access_unit_zero (Elt Ideal) main_v16 hz' (fun a => by rw [congrFun hz' a]; simp) _

theorem wblk5 (c : Dev nD) (t : Fin cfg0.N) : (iblk m c 5 t : Vec Ideal S128x64 .bf16) = V m c main_v18 := by
  obtain ⟨-, -, -, -, -, -, -, -, -, -, e0, e1, -⟩ := idx_facts t
  have hz' : (fun a => win0_5.index t a * main_v18.ty.shape.size a) = fun _ => 0 :=
    funext fun a => by
      match a with
      | ⟨0, _⟩ => (show win0_5.index t (0 : Fin 2) * 128 = 0); rw [e0]
      | ⟨1, _⟩ => (show win0_5.index t (1 : Fin 2) * 64 = 0); rw [e1]
  exact Memref.read_access_unit_zero (Elt Ideal) main_v18 hz' (fun a => by rw [congrFun hz' a]; simp) _

theorem wblk6 (c : Dev nD) (t : Fin cfg0.N) : (iblk m c 6 t : Vec Ideal S1x64 .f32) = V m c main_v21 := by
  obtain ⟨-, -, -, -, -, -, -, -, -, -, -, -, e0, e1, -⟩ := idx_facts t
  have hz' : (fun a => win0_6.index t a * main_v21.ty.shape.size a) = fun _ => 0 :=
    funext fun a => by
      match a with
      | ⟨0, _⟩ => (show win0_6.index t (0 : Fin 2) * 1 = 0); rw [e0]
      | ⟨1, _⟩ => (show win0_6.index t (1 : Fin 2) * 64 = 0); rw [e1]
  exact Memref.read_access_unit_zero (Elt Ideal) main_v21 hz' (fun a => by rw [congrFun hz' a]; simp) _

theorem wblk7 (c : Dev nD) (t : Fin cfg0.N) : (iblk m c 7 t : Vec Ideal S64x8 .bf16) = V m c main_v23 := by
  obtain ⟨-, -, -, -, -, -, -, -, -, -, -, -, -, -, e0, e1, -⟩ := idx_facts t
  have hz' : (fun a => win0_7.index t a * main_v23.ty.shape.size a) = fun _ => 0 :=
    funext fun a => by
      match a with
      | ⟨0, _⟩ => (show win0_7.index t (0 : Fin 2) * 64 = 0); rw [e0]
      | ⟨1, _⟩ => (show win0_7.index t (1 : Fin 2) * 8 = 0); rw [e1]
  exact Memref.read_access_unit_zero (Elt Ideal) main_v23 hz' (fun a => by rw [congrFun hz' a]; simp) _

theorem wblk8 (c : Dev nD) (t : Fin cfg0.N) : (iblk m c 8 t : Vec Ideal S1x8 .f32) = V m c main_v26 := by
  obtain ⟨-, -, -, -, -, -, -, -, -, -, -, -, -, -, -, -, e0, e1, -⟩ := idx_facts t
  have hz' : (fun a => win0_8.index t a * main_v26.ty.shape.size a) = fun _ => 0 :=
    funext fun a => by
      match a with
      | ⟨0, _⟩ => (show win0_8.index t (0 : Fin 2) * 1 = 0); rw [e0]
      | ⟨1, _⟩ => (show win0_8.index t (1 : Fin 2) * 8 = 0); rw [e1]
  exact Memref.read_access_unit_zero (Elt Ideal) main_v26 hz' (fun a => by rw [congrFun hz' a]; simp) _

set_option maxHeartbeats 4000000 in
/-- WHAT POINT `t` WRITES BACK is block `t` of the packed result. -/
theorem flushed_eq (c : Dev nD) (t : Fin cfg0.N) :
    (dats m 0 c).flushed 9 t = ((cfg0.win 9).blk t).view.read (Elt Ideal) (packed m c) := by
  show (cfg0.win 9).cut (grid0.coords t) ((dats m 0 c).after 9 t) = _
  rw [after0_9]
  unfold out0_9
  rw [View.canon_unit_zero hz]
  simp only [View.ld_unit_zero (S := S4096x240) hz, View.ld_unit_zero (S := S240x256) hz, View.ld_unit_zero (S := S1x256) hz,
    View.ld_unit_zero (S := S256x128) hz, View.ld_unit_zero (S := S1x128) hz, View.ld_unit_zero (S := S128x64) hz,
    View.ld_unit_zero (S := S1x64) hz, View.ld_unit_zero (S := S64x8) hz, View.ld_unit_zero (S := S1x8) hz]
  rw [wblk1, wblk2, wblk3, wblk4, wblk5, wblk6, wblk7, wblk8]
  funext j
  obtain ⟨y, g, rfl⟩ : ∃ (y : Fin 4096) (g : Fin 8), j = ix2 y g := ⟨j 0, j 1, eq_ix2 j⟩
  rw [View.read_apply]
  obtain ⟨-, -, -, -, -, -, -, -, -, -, -, -, -, -, -, -, -, -, e0, e1⟩ := idx_facts t
  have he : ((View.whole main_v27).slice ((win0 9).rect t)).emb (ix2 y g)
      = (ix2 ⟨4096 * t.val + y.val, by have := t_lt t; have := y.isLt; omega⟩ g : S32768x8.Idx) := by
    funext a
    apply Fin.ext
    match a with
    | ⟨0, _⟩ => show win0_9.index t (0 : Fin 2) * 4096 + 1 * y.val = 4096 * t.val + y.val; rw [e0]; omega
    | ⟨1, _⟩ => show win0_9.index t (1 : Fin 2) * 8 + 1 * g.val = g.val; rw [e1]; omega
  show k0_pay1 (F := Ideal) (k0_pay2 (F := Ideal) (iblk m c 0 t) (V m c main_v8) (V m c main_v11) (V m c main_v13) (V m c main_v16)
        (V m c main_v18) (V m c main_v21) (V m c main_v23)) (V m c main_v26) (ix2 y g)
      = packed m c (((View.whole main_v27).slice ((win0 9).rect t)).emb (ix2 y g))
  rw [he]
  refine (pay_apply (iblk m c 0 t) (V m c main_v8) (V m c main_v11) (V m c main_v13) (V m c main_v16)
        (V m c main_v18) (V m c main_v21) (V m c main_v23) (V m c main_v26) y g).trans ?_
  unfold packed GP
  simp only [xblk_apply]

/-- An index of the packed result is in point `t`'s block iff each coordinate is in the block's range on its axis. -/
theorem mem_blk (t : Fin cfg0.N) (i : S32768x8.Idx) :
    i ∈ ((cfg0.win 9).blk t).view.set ↔ ∀ a : Fin 2, win0_9.index t a * S4096x8.size a ≤ (i a).val ∧ (i a).val < win0_9.index t a * S4096x8.size a + S4096x8.size a := by
  show i ∈ ((View.whole main_v27).slice (win0_9.rect t)).set ↔ _
  rw [View.set_slice_whole, Rect.mem_set_unit]
  exact Iff.rfl

/-- Packed row `p` lies in the block of point `p / 4096`: the eight blocks tile the packed result. -/
theorem final_p (c : Dev nD) : (dats m 0 c).arrAt 9 cfg0.N = packed m c :=
  (dats m 0 c).arrAt_eq_of_cover 9 _ (fun t _ => flushed_eq m c t) fun i => by
    have hi0 : (i 0).val < 32768 := (i 0).isLt
    have hi1 : (i 1).val < 8 := (i 1).isLt
    have hN : cfg0.N = 8 := N_0
    refine ⟨⟨(i 0).val / 4096, by rw [hN]; omega⟩, flush0_9 _, ?_⟩
    rw [mem_blk]
    obtain ⟨-, -, -, -, -, -, -, -, -, -, -, -, -, -, -, -, -, -, e0, e1⟩ := idx_facts ⟨(i 0).val / 4096, by rw [hN]; omega⟩
    intro a
    match a with
    | ⟨0, _⟩ =>
      show win0_9.index _ (0 : Fin 2) * 4096 ≤ (i 0).val ∧ (i 0).val < win0_9.index _ (0 : Fin 2) * 4096 + 4096
      rw [e0]; show (i 0).val / 4096 * 4096 ≤ (i 0).val ∧ (i 0).val < (i 0).val / 4096 * 4096 + 4096; omega
    | ⟨1, _⟩ =>
      show win0_9.index _ (1 : Fin 2) * 8 ≤ (i 1).val ∧ (i 1).val < win0_9.index _ (1 : Fin 2) * 8 + 8
      rw [e1]; omega

/-- The host's last line reshapes the packed result to one column. -/
theorem result_eq (c : Dev nD) :
    Pipeline.afterTail₀ cfgs (dats m) 0 (V0 m) [hostOps1] c main_v28
      = shapeCast S262144x1 (packed m c) shapeCasts_S32768x8_S262144x1 := by
  unfold Pipeline.afterTail₀
  show StableHlo.after hostOps1 _ (Proc.devRef .tc main_v28) = _
  after_results
  show shapeCast S262144x1 (Pipeline.withArrays (cfgs 0).spec c (V0 m c) (fun w => (dats m 0 c).arrAt w (cfgs 0).N)
      (Proc.tc.devRef main_v27)) shapeCasts_S32768x8_S262144x1 = _
  rw [(Pipeline.withArrays_arr spec0 launch0.win.arr_inj c _ _ 9).trans (final_p m c)]

end Cert.KernelIdeal.Hand

end
-- ==== Proof.KerBridge.lean ====
/-
  The packing program computes the network of every row.  Packed entry `(p, g)` is the packed-width network of
  packed row `p` against block-diagonal matrices and repeated biases (`Hand.packed`); packed row `p` is rows
  `8p … 8p + 7` of `x` side by side; so by `Mlp.net_packed` the entry is the network of row `8p + g`.  The last
  reshape puts it at entry `(8p + g, 0)` of the result.
-/
import proofs.«158514_g2000605162513149_pallasbulk_511_2_alg».proof.Proof.KerHost
import proofs.«158514_g2000605162513149_pallasbulk_511_2_alg».proof.Proof.KerValue

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Host

variable (m : (ℓ : Loc nD τ sig) → Buf (Elt Ideal) ℓ) (ρ : Dev nD → PrngReg)

/-- Packed entry `(p, g)` is the network of row `8p + g` of `x`. -/
theorem packed_apply (c : Dev nD) (p : Fin 32768) (g : Fin 8) :
    packed m c (ix2 p g)
      = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (ix2 ⟨8 * p.val + g.val, by have := p.isLt; have := g.isLt; omega⟩ 0) := by
  have key := Mlp.net_packed (G := 8) (A0 := 30) (A1 := 32) (A2 := 16) (A3 := 8) (A4 := 1)
    (fun a b => if a = b then (1 : EReal) else 0) (fun _ _ => rfl)
    (fun (g' : Fin 8) (j : Fin 30) => ((m ((c : Thread nD τ).loc main_arg0)) : S262144x30.Idx → EReal)
      (ix2 ⟨8 * p.val + g'.val, by have := p.isLt; have := g'.isLt; omega⟩ j))
    (fun k n => ((m ((c : Thread nD τ).loc main_arg1)) : S30x32.Idx → EReal) (ix2 k n)) (fun n => ((m ((c : Thread nD τ).loc main_arg2)) : S1x32.Idx → EReal) (ix2 0 n))
    (fun k n => ((m ((c : Thread nD τ).loc main_arg3)) : S32x16.Idx → EReal) (ix2 k n)) (fun n => ((m ((c : Thread nD τ).loc main_arg4)) : S1x16.Idx → EReal) (ix2 0 n))
    (fun k n => ((m ((c : Thread nD τ).loc main_arg5)) : S16x8.Idx → EReal) (ix2 k n)) (fun n => ((m ((c : Thread nD τ).loc main_arg6)) : S1x8.Idx → EReal) (ix2 0 n))
    (fun k n => ((m ((c : Thread nD τ).loc main_arg7)) : S8x1.Idx → EReal) (ix2 k n)) (fun n => ((m ((c : Thread nD τ).loc main_arg8)) : S1x1.Idx → EReal) (ix2 0 n))
    (fun k : Fin 240 => (V m c main_v0 : S32768x240.Idx → EReal) (ix2 p k))
    (fun (k : Fin 240) (n : Fin 256) => (V m c main_v8 : S240x256.Idx → EReal) (ix2 k n))
    (fun n : Fin 256 => (V m c main_v11 : S1x256.Idx → EReal) (ix2 0 n))
    (fun (k : Fin 256) (n : Fin 128) => (V m c main_v13 : S256x128.Idx → EReal) (ix2 k n))
    (fun n : Fin 128 => (V m c main_v16 : S1x128.Idx → EReal) (ix2 0 n))
    (fun (k : Fin 128) (n : Fin 64) => (V m c main_v18 : S128x64.Idx → EReal) (ix2 k n))
    (fun n : Fin 64 => (V m c main_v21 : S1x64.Idx → EReal) (ix2 0 n))
    (fun (k : Fin 64) (n : Fin 8) => (V m c main_v23 : S64x8.Idx → EReal) (ix2 k n))
    (fun n : Fin 8 => (V m c main_v26 : S1x8.Idx → EReal) (ix2 0 n))
    (fun k => xp_apply m c p k)
    (fun k n => w1p_apply m c k n) (fun n => b1p_apply m c n)
    (fun k n => w2p_apply m c k n) (fun n => b2p_apply m c n)
    (fun k n => w3p_apply m c k n) (fun n => b3p_apply m c n)
    (fun k n => w4p_apply m c k n) (fun n => b4p_apply m c n)
    g
  have hd : Fin.divNat (m := 8) (n := 1) g = g := Fin.ext (Nat.div_one _)
  rw [hd, Subsingleton.elim (Fin.modNat (m := 8) (n := 1) g) (0 : Fin 1)] at key
  exact key

/-- The result array, after the host's last reshape, is the network of every row of `x`. -/
theorem result_final (c : Dev nD) :
    (Pipeline.afterTail₀ cfgs (dats m) 0 (V0 m) [hostOps1] c main_v28 : S262144x1.Idx → EReal)
      = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_eq]
  funext i
  obtain ⟨r, q, rfl⟩ : ∃ (r : Fin 262144) (q : Fin 1), i = ix2 r q := ⟨i 0, i 1, eq_ix2 i⟩
  have hr := r.isLt
  have hq : q.val = 0 := by have := q.isLt; omega
  rw [shapeCast_apply (s := S32768x8) (t := S262144x1) _ _ (ix2 r q)
      (ix2 (⟨r.val / 8, by omega⟩ : Fin 32768) (⟨r.val % 8, Nat.mod_lt _ (by decide)⟩ : Fin 8))
      (by rw [Shape.rowMajor_val_two, Shape.rowMajor_val_two]
          show r.val / 8 * 8 + r.val % 8 = r.val * 1 + q.val
          omega),
    packed_apply]
  congr 1
  exact Shape.idx_ext₂ (show 8 * (r.val / 8) + r.val % 8 = r.val by omega) hq.symm

/-- The run, read: the result array is the network of every row of `x`; the arguments are unchanged. -/
theorem run : θ_run defs (onTc (τ := τ) (main (F := Ideal))) ⟨m, fun _ => 0, ρ⟩ fun r => ∀ c : Dev nD,
      r.2.mem ((c : Thread nD τ).loc main_v28) = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨
      ((h c).2 main_v28 (Pipeline.mem_restRefs_of main_v28 (by decide) (by decide))).trans (result_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.lean ====
/-
  The certificate: a four-layer perceptron (30 → 32 → 16 → 8 → 1, three rectifiers and a logistic) over a batch of
  262144 rows, computed row block by row block on one side and, on the other, eight rows at a time laid side by side
  against block-diagonal matrices (the Kronecker product of the 8×8 identity with each layer's matrix) and biases
  repeated eight times, the matrix products fed in a narrower float format.

  On the extended reals a change of float format is the identity, and the block-diagonal product is the row-by-row
  product: the off-diagonal blocks contribute `h · (0 · w) = 0`, the diagonal block `h · (1 · w) = h · w`
  (`Mlp.lin_packed`, `Mlp.net_packed`); no finiteness of the inputs is needed.  Both programs' result arrays are
  therefore ONE function of the arguments, `Spec.G`: the network of every row of `x`.  The row-by-row side is
  `RefValue`; the packed side is `KerHost` (what the host lays out before the launch), `KerValue` (the kernel over
  the packed arrays) and `KerBridge` (packed entry `(p, g)` is the network of row `8p + g`).
  The three frames are the generated ones; the idealization rewrote nothing.
-/
import proofs.«158514_g2000605162513149_pallasbulk_511_2_alg».proof.Defs
import proofs.«158514_g2000605162513149_pallasbulk_511_2_alg».proof.Proof.Gen.Kernel
import proofs.«158514_g2000605162513149_pallasbulk_511_2_alg».proof.Proof.Gen.Kernel.Skeleton
import proofs.«158514_g2000605162513149_pallasbulk_511_2_alg».proof.Proof.Gen.Kernel.Launch
import proofs.«158514_g2000605162513149_pallasbulk_511_2_alg».proof.Proof.Gen.Kernel.Points
import proofs.«158514_g2000605162513149_pallasbulk_511_2_alg».proof.Proof.Gen.Kernel.Frame
import proofs.«158514_g2000605162513149_pallasbulk_511_2_alg».proof.Proof.Gen.KernelIdeal
import proofs.«158514_g2000605162513149_pallasbulk_511_2_alg».proof.Proof.Gen.KernelIdeal.Skeleton
import proofs.«158514_g2000605162513149_pallasbulk_511_2_alg».proof.Proof.Gen.KernelIdeal.Launch
import proofs.«158514_g2000605162513149_pallasbulk_511_2_alg».proof.Proof.Gen.KernelIdeal.Points
import proofs.«158514_g2000605162513149_pallasbulk_511_2_alg».proof.Proof.Gen.KernelIdeal.Frame
import proofs.«158514_g2000605162513149_pallasbulk_511_2_alg».proof.Proof.Gen.ReferenceIdeal
import proofs.«158514_g2000605162513149_pallasbulk_511_2_alg».proof.Proof.Gen.ReferenceIdeal.Skeleton
import proofs.«158514_g2000605162513149_pallasbulk_511_2_alg».proof.Proof.Gen.ReferenceIdeal.Launch
import proofs.«158514_g2000605162513149_pallasbulk_511_2_alg».proof.Proof.Gen.ReferenceIdeal.Points
import proofs.«158514_g2000605162513149_pallasbulk_511_2_alg».proof.Proof.Gen.ReferenceIdeal.Frame
import proofs.«158514_g2000605162513149_pallasbulk_511_2_alg».proof.Proof.Gen.ReferenceIdeal.Value
import proofs.«158514_g2000605162513149_pallasbulk_511_2_alg».proof.Proof.Gen.Pre_finite_inputs
import proofs.«158514_g2000605162513149_pallasbulk_511_2_alg».proof.Proof.RefValue
import proofs.«158514_g2000605162513149_pallasbulk_511_2_alg».proof.Proof.KerBridge
import Idealize.ShloMosaic.Adequacy
import Idealize.ShloMosaic.Init

noncomputable section

namespace Cert.Proof

open Idealize.ShloMosaic Idealize.SL.Sem

/-- Both idealized programs, from memories that agree on the arguments, end with the network of every row of `x` in
    their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
